-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S5000x128 : Shape := ⟨2, ![5000, 128]⟩
abbrev S650000x128 : Shape := ⟨2, ![650000, 128]⟩
abbrev S50000x1 : Shape := ⟨2, ![50000, 1]⟩
abbrev S5000x1 : Shape := ⟨2, ![5000, 1]⟩
abbrev S1x1 : Shape := ⟨2, ![1, 1]⟩

abbrev nBuf : Space → Nat
  | .hbm => 106
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S50000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S1x600000, .i32⟩
  | .hbm, ⟨17, _⟩ => ⟨S600000, .i32⟩
  | .hbm, ⟨18, _⟩ => ⟨S650000, .i32⟩
  | .hbm, ⟨19, _⟩ => ⟨S_, .f32⟩
  | .hbm, ⟨20, _⟩ => ⟨S650000, .f32⟩
  | .hbm, ⟨21, _⟩ => ⟨S_, .f32⟩
  | .hbm, ⟨22, _⟩ => ⟨S50000, .f32⟩
  | .hbm, ⟨23, _⟩ => ⟨S650000x1, .i32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S650000, .i32⟩
  | .hbm, ⟨28, _⟩ => ⟨S650000, .i1⟩
  | .hbm, ⟨29, _⟩ => ⟨S_, .i32⟩
  | .hbm, ⟨30, _⟩ => ⟨S650000, .i32⟩
  | .hbm, ⟨31, _⟩ => ⟨S650000, .i32⟩
  | .hbm, ⟨32, _⟩ => ⟨S650000, .i32⟩
  | .hbm, ⟨33, _⟩ => ⟨S650000x1, .i32⟩
  | .hbm, ⟨34, _⟩ => ⟨S650000, .f32⟩
  | .hbm, ⟨35, _⟩ => ⟨S_, .i32⟩
  | .hbm, ⟨36, _⟩ => ⟨S650000, .i32⟩
  | .hbm, ⟨37, _⟩ => ⟨S650000, .i1⟩
  | .hbm, ⟨38, _⟩ => ⟨S_, .i32⟩
  | .hbm, ⟨39, _⟩ => ⟨S650000, .i32⟩
  | .hbm, ⟨40, _⟩ => ⟨S650000, .i32⟩
  | .hbm, ⟨41, _⟩ => ⟨S650000, .i32⟩
  | .hbm, ⟨42, _⟩ => ⟨S650000x1, .i32⟩
  | .hbm, ⟨43, _⟩ => ⟨S650000, .f32⟩
  | .hbm, ⟨44, _⟩ => ⟨S650000, .f32⟩
  | .hbm, ⟨45, _⟩ => ⟨S650000x1, .f32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S650000, .i32⟩
  | .hbm, ⟨69, _⟩ => ⟨S650000, .i1⟩
  | .hbm, ⟨70, _⟩ => ⟨S_, .i32⟩
  | .hbm, ⟨71, _⟩ => ⟨S650000, .i32⟩
  | .hbm, ⟨72, _⟩ => ⟨S650000, .i32⟩
  | .hbm, ⟨73, _⟩ => ⟨S650000, .i32⟩
  | .hbm, ⟨74, _⟩ => ⟨S650000x1, .i32⟩
  | .hbm, ⟨75, _⟩ => ⟨S650000x128, .f32⟩
  | .hbm, ⟨76, _⟩ => ⟨S650000x128, .f32⟩
  | .hbm, ⟨77, _⟩ => ⟨S650000x128, .f32⟩
  | .hbm, ⟨78, _⟩ => ⟨S_, .f32⟩
  | .hbm, ⟨79, _⟩ => ⟨S50000x128, .f32⟩
  | .hbm, ⟨80, _⟩ => ⟨S650000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S_, .i32⟩
  | .hbm, ⟨85, _⟩ => ⟨S650000, .i32⟩
  | .hbm, ⟨86, _⟩ => ⟨S650000, .i1⟩
  | .hbm, ⟨87, _⟩ => ⟨S_, .i32⟩
  | .hbm, ⟨88, _⟩ => ⟨S650000, .i32⟩
  | .hbm, ⟨89, _⟩ => ⟨S650000, .i32⟩
  | .hbm, ⟨90, _⟩ => ⟨S650000, .i32⟩
  | .hbm, ⟨91, _⟩ => ⟨S650000x1, .i32⟩
  | .hbm, ⟨92, _⟩ => ⟨S650000x128, .f32⟩
  | .hbm, ⟨93, _⟩ => ⟨S650000x128, .f32⟩
  | .hbm, ⟨94, _⟩ => ⟨S650000x128, .f32⟩
  | .hbm, ⟨95, _⟩ => ⟨S_, .f32⟩
  | .hbm, ⟨96, _⟩ => ⟨S50000x128, .f32⟩
  | .hbm, ⟨97, _⟩ => ⟨S650000x1, .i32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S1x128, .f32⟩
  | .hbm, ⟨102, _⟩ => ⟨S50000x1, .f32⟩
  | .hbm, ⟨103, _⟩ => ⟨S1x1, .f32⟩
  | .hbm, ⟨104, _⟩ => ⟨S50000x1, .f32⟩
  | .hbm, ⟨105, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S128x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S128x1, .f32⟩
  | .local _ .vmem, ⟨28, _⟩ => ⟨S5000x1, .f32⟩
  | .local _ .vmem, ⟨29, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  inb_S5000x1_S5000x1_0_0 : ∀ a, (![0, 0] : Fin 2 → Nat) a + S5000x1.size a ≤ S5000x1.size a
  h_S5000x1 : 0 < S5000x1.numel
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x1.size a ≤ S128x1.size a
  hwx4_2 : ∀ i : grid4.Coords, EltTy.bits .f32 = 32 ∨ (Rect.block (s := S128x1) S128x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v72) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S50000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S1x600000, .i32⟩
  | .hbm, ⟨17, _⟩ => ⟨S600000, .i32⟩
  | .hbm, ⟨18, _⟩ => ⟨S650000, .i32⟩
  | .hbm, ⟨19, _⟩ => ⟨S_, .f32⟩
  | .hbm, ⟨20, _⟩ => ⟨S650000, .f32⟩
  | .hbm, ⟨21, _⟩ => ⟨S_, .f32⟩
  | .hbm, ⟨22, _⟩ => ⟨S50000, .f32⟩
  | .hbm, ⟨23, _⟩ => ⟨S650000x1, .i32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S650000, .i32⟩
  | .hbm, ⟨28, _⟩ => ⟨S650000, .i1⟩
  | .hbm, ⟨29, _⟩ => ⟨S_, .i32⟩
  | .hbm, ⟨30, _⟩ => ⟨S650000, .i32⟩
  | .hbm, ⟨31, _⟩ => ⟨S650000, .i32⟩
  | .hbm, ⟨32, _⟩ => ⟨S650000, .i32⟩
  | .hbm, ⟨33, _⟩ => ⟨S650000x1, .i32⟩
  | .hbm, ⟨34, _⟩ => ⟨S650000, .f32⟩
  | .hbm, ⟨35, _⟩ => ⟨S_, .i32⟩
  | .hbm, ⟨36, _⟩ => ⟨S650000, .i32⟩
  | .hbm, ⟨37, _⟩ => ⟨S650000, .i1⟩
  | .hbm, ⟨38, _⟩ => ⟨S_, .i32⟩
  | .hbm, ⟨39, _⟩ => ⟨S650000, .i32⟩
  | .hbm, ⟨40, _⟩ => ⟨S650000, .i32⟩
  | .hbm, ⟨41, _⟩ => ⟨S650000, .i32⟩
  | .hbm, ⟨42, _⟩ => ⟨S650000x1, .i32⟩
  | .hbm, ⟨43, _⟩ => ⟨S650000, .f32⟩
  | .hbm, ⟨44, _⟩ => ⟨S650000, .f32⟩
  | .hbm, ⟨45, _⟩ => ⟨S650000x1, .f32⟩
  | .hbm, ⟨46, _⟩ => ⟨S50000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x128, .f32⟩
  | .hbm, ⟨57, _⟩ => ⟨S650000x128, .f32⟩
  | .hbm, ⟨58, _⟩ => ⟨S_, .f32⟩
  | .hbm, ⟨59, _⟩ => ⟨S50000x128, .f32⟩
  | .hbm, ⟨60, _⟩ => ⟨S650000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S650000, .i32⟩
  | .hbm, ⟨71, _⟩ => ⟨S650000, .i1⟩
  | .hbm, ⟨72, _⟩ => ⟨S_, .i32⟩
  | .hbm, ⟨73, _⟩ => ⟨S650000, .i32⟩
  | .hbm, ⟨74, _⟩ => ⟨S650000, .i32⟩
  | .hbm, ⟨75, _⟩ => ⟨S650000, .i32⟩
  | .hbm, ⟨76, _⟩ => ⟨S650000x1, .i32⟩
  | .hbm, ⟨77, _⟩ => ⟨S650000x128, .f32⟩
  | .hbm, ⟨78, _⟩ => ⟨S650000x128, .f32⟩
  | .hbm, ⟨79, _⟩ => ⟨S650000x128, .f32⟩
  | .hbm, ⟨80, _⟩ => ⟨S_, .f32⟩
  | .hbm, ⟨81, _⟩ => ⟨S50000x128, .f32⟩
  | .hbm, ⟨82, _⟩ => ⟨S650000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S_, .i32⟩
  | .hbm, ⟨92, _⟩ => ⟨S650000, .i32⟩
  | .hbm, ⟨93, _⟩ => ⟨S650000, .i1⟩
  | .hbm, ⟨94, _⟩ => ⟨S_, .i32⟩
  | .hbm, ⟨95, _⟩ => ⟨S650000, .i32⟩
  | .hbm, ⟨96, _⟩ => ⟨S650000, .i32⟩
  | .hbm, ⟨97, _⟩ => ⟨S650000, .i32⟩
  | .hbm, ⟨98, _⟩ => ⟨S650000x1, .i32⟩
  | .hbm, ⟨99, _⟩ => ⟨S650000x128, .f32⟩
  | .hbm, ⟨100, _⟩ => ⟨S650000x128, .f32⟩
  | .hbm, ⟨101, _⟩ => ⟨S650000x128, .f32⟩
  | .hbm, ⟨102, _⟩ => ⟨S_, .f32⟩
  | .hbm, ⟨103, _⟩ => ⟨S50000x128, .f32⟩
  | .hbm, ⟨104, _⟩ => ⟨S650000x1, .i32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S50000x128, .f32⟩
  | .hbm, ⟨110, _⟩ => ⟨S1x128, .f32⟩
  | .hbm, ⟨111, _⟩ => ⟨S50000x128, .f32⟩
  | .hbm, ⟨112, _⟩ => ⟨S50000x128, .f32⟩
  | .hbm, ⟨113, _⟩ => ⟨S_, .f32⟩
  | .hbm, ⟨114, _⟩ => ⟨S50000x128, .f32⟩
  | .hbm, ⟨115, _⟩ => ⟨S50000x128, .f32⟩
  | .hbm, ⟨116, _⟩ => ⟨S50000x1, .f32⟩
  | .hbm, ⟨117, _⟩ => ⟨S1x1, .f32⟩
  | .hbm, ⟨118, _⟩ => ⟨S50000x1, .f32⟩
  | .hbm, ⟨119, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_cst : Ref sig .tc := ⟨.hbm, 65, rfl⟩
abbrev main_call0_v0 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call1_cst : Ref sig .tc := ⟨.hbm, 87, rfl⟩
abbrev main_call1_v0 : Ref sig .tc := ⟨.hbm, 88, rfl⟩
abbrev main_v61 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_c_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x1_S50000x1_1_0_0_1_n_n_wf : DotDims.WF S50000x128 S128x1 S50000x1 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  The mathematics both programs compute: a three-layer graph convolution with symmetric degree normalisation over
  the edge list extended by one self loop per node, followed by a two-layer perceptron head.

  From the edge array `e : i32[2, 600000]`: `srcIdx e` and `dstIdx e` are its two rows, each followed by the node
  numbers 0 … 49999 (the self loops). `dinv e` is the reciprocal square root of each node's in-degree (a scatter-add
  of ones along `dstIdx`), `edgeNorm e` the product of `dinv` at an edge's two ends, and `aggregate e h` sums, into
  each destination node, the rows of `h` gathered at the edges' sources and scaled by `edgeNorm`.

  A dense layer is a matrix product, a bias row added to every node's row first, with or without a clamp at zero.
  The reference adds each bias after the aggregation that precedes it (`refOut`); the kernel moves that addition,
  and the clamp, in front of the next matrix product, and adds a zero row before the first one (`kernOut`).
-/
import proofs.«131708_j48490180771963_1_alg».proof.Proof.Gen.KernelIdeal
import proofs.«131708_j48490180771963_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- Arrays of the sizes the two programs use. -/
abbrev Nodes (F : FTy → Type) [FloatOps F] := (⟨S50000x128, .f32⟩ : BufTy).Contents (Elt F)
abbrev Edges (F : FTy → Type) [FloatOps F] := (⟨S2x600000, .i32⟩ : BufTy).Contents (Elt F)
abbrev Weights (F : FTy → Type) [FloatOps F] := (⟨S128x128, .f32⟩ : BufTy).Contents (Elt F)
abbrev Bias (F : FTy → Type) [FloatOps F] := (⟨S128, .f32⟩ : BufTy).Contents (Elt F)
abbrev BiasRow (F : FTy → Type) [FloatOps F] := (⟨S1x128, .f32⟩ : BufTy).Contents (Elt F)
abbrev HeadWeights (F : FTy → Type) [FloatOps F] := (⟨S128x1, .f32⟩ : BufTy).Contents (Elt F)
abbrev Scores (F : FTy → Type) [FloatOps F] := (⟨S50000x1, .f32⟩ : BufTy).Contents (Elt F)

/-- Source node of every edge: row 0 of the edge array, then each node once (its self loop). -/
def srcIdx (e : Edges F) : (⟨S650000, .i32⟩ : BufTy).Contents (Elt F) :=
  concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0

/-- Destination node of every edge: row 1 of the edge array, then each node once. -/
def dstIdx (e : Edges F) : (⟨S650000, .i32⟩ : BufTy).Contents (Elt F) :=
  concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0

/-- A negative node number counts from the end: 50000 is added to it. -/
def wrapIdx (s : (⟨S650000, .i32⟩ : BufTy).Contents (Elt F)) : (⟨S650000, .i32⟩ : BufTy).Contents (Elt F) :=
  select (cmpi .slt s (broadcastInDim S650000 ![] bcast_S_S650000 (constantI S_ 32 0#32))) (addi s (broadcastInDim S650000 ![] bcast_S_S650000 (constantI S_ 32 50000#32))) s

/-- An index vector as the one-column index array a gather or a scatter takes. -/
def asColumn (s : (⟨S650000, .i32⟩ : BufTy).Contents (Elt F)) : (⟨S650000x1, .i32⟩ : BufTy).Contents (Elt F) :=
  broadcastInDim S650000x1 ![0] bcast_S650000_S650000x1_0 s

/-- The reciprocal square root of every node's in-degree, self loop included. -/
def dinv (e : Edges F) : (⟨S50000, .f32⟩ : BufTy).Contents (Elt F) :=
  Host.rsqrt (Host.scatterAdd scatter_S50000_S650000x1_S650000_n_0_0_1 (broadcastInDim S50000 ![] bcast_S_S50000 (constant S_ .f32 0x00000000#32)) (broadcastInDim S650000x1 ![0] bcast_S650000_S650000x1_0 (dstIdx e)) (broadcastInDim S650000 ![] bcast_S_S650000 (constant S_ .f32 0x3F800000#32)))

/-- Every edge's weight: `dinv` at its source times `dinv` at its destination, as a column. -/
def edgeNorm (e : Edges F) : (⟨S650000x1, .f32⟩ : BufTy).Contents (Elt F) :=
  broadcastInDim S650000x1 ![0] bcast_S650000_S650000x1_0 (mulf (Host.gather gather_S50000_S650000x1_S650000_n_0_n_n_0_1_1 (dinv e) (broadcastInDim S650000x1 ![0] bcast_S650000_S650000x1_0 (wrapIdx (srcIdx e)))) (Host.gather gather_S50000_S650000x1_S650000_n_0_n_n_0_1_1 (dinv e) (broadcastInDim S650000x1 ![0] bcast_S650000_S650000x1_0 (wrapIdx (dstIdx e)))))

/-- The all-zero node array a scatter-add starts from, and a clamp compares with. -/
def zeroNodes : Nodes F :=
  broadcastInDim S50000x128 ![] bcast_S_S50000x128 (constant S_ .f32 0x00000000#32)

/-- One round of message passing: node `d` receives the sum, over the edges into `d`, of the source's row of `h`
    times the edge's weight. -/
def aggregate (e : Edges F) (h : Nodes F) : Nodes F :=
  Host.scatterAdd scatter_S50000x128_S650000x1_S650000x128_1_0_0_1 (broadcastInDim S50000x128 ![] bcast_S_S50000x128 (constant S_ .f32 0x00000000#32)) (broadcastInDim S650000x1 ![0] bcast_S650000_S650000x1_0 (dstIdx e)) (mulf (Host.gather gather_S50000x128_S650000x1_S650000x128_1_0_n_n_0_1_1128 h (broadcastInDim S650000x1 ![0] bcast_S650000_S650000x1_0 (wrapIdx (srcIdx e)))) (broadcastInDim S650000x128 ![0, 1] bcast_S650000x1_S650000x128_0_1 (edgeNorm e)))

/-- A bias row repeated for every node. -/
def everyNode (b : BiasRow F) : Nodes F :=
  broadcastInDim S50000x128 ![0, 1] bcast_S1x128_S50000x128_0_1 b

/-- A bias vector as a one-row array, the way the reference lays it out (a broadcast into the new axis). -/
def rowOfBroadcast (b : Bias F) : BiasRow F :=
  broadcastInDim S1x128 ![1] bcast_S128_S1x128_1 b

/-- A bias vector as a one-row array, the way the kernel lays it out (a reshape). -/
def rowOfReshape (b : Bias F) : BiasRow F :=
  shapeCast _ b Cert.KernelIdeal.Gen.shapeCasts_S128_S1x128

/-- The zero bias row the kernel feeds its first layer. -/
def zeroRow : BiasRow F :=
  shapeCast _ (broadcastInDim S128 ![] Cert.KernelIdeal.Gen.bcast_S_S128 (constant S_ .f32 0x00000000#32)) Cert.KernelIdeal.Gen.shapeCasts_S128_S1x128

/-- The matrix product of two node-sized operands. -/
def matN (x : Nodes F) (w : Weights F) : Nodes F :=
  Host.dotGeneral dot_S50000x128_S128x128_S50000x128_1_0_0_1_n_n none x w

/-- The matrix product with the one-column head weights. -/
def matHead (x : Nodes F) (w : HeadWeights F) : Scores F :=
  Host.dotGeneral dot_S50000x128_S128x1_S50000x1_1_0_0_1_n_n none x w

/-- What a kernel region without a clamp leaves in its output array: (x + bias row) · w. -/
def dense (x : Nodes F) (b : BiasRow F) (w : Weights F) : Nodes F :=
  matN (addf x (everyNode b)) w

/-- What a kernel region with a clamp leaves: max(x + bias row, 0) · w. -/
def denseRelu (x : Nodes F) (b : BiasRow F) (w : Weights F) : Nodes F :=
  matN (maximumf (addf x (everyNode b)) zeroNodes) w

/-- What the last kernel region leaves: max(x + bias row, 0) · w for the one-column w. -/
def headRelu (x : Nodes F) (b : BiasRow F) (w : HeadWeights F) : Scores F :=
  matHead (maximumf (addf x (everyNode b)) zeroNodes) w

/-- The output bias, one number, repeated for every node. -/
def everyScore (b : (⟨S1, .f32⟩ : BufTy).Contents (Elt F)) : Scores F :=
  broadcastInDim S50000x1 ![0, 1] bcast_S1x1_S50000x1_0_1 (broadcastInDim S1x1 ![1] bcast_S1_S1x1_1 b)

/-- The reference's result: bias and clamp after each aggregation. -/
def refOut (x : Nodes F) (e : Edges F) (w0 : Weights F) (b0 : Bias F) (w1 : Weights F) (b1 : Bias F) (w2 : Weights F) (b2 : Bias F)
    (mw1 : Weights F) (mb1 : Bias F) (mw2 : HeadWeights F) (mb2 : (⟨S1, .f32⟩ : BufTy).Contents (Elt F)) : Scores F :=
  addf (matHead (maximumf (addf (matN (addf (aggregate e (matN (maximumf (addf (aggregate e (matN (maximumf (addf (aggregate e (matN x w0)) (everyNode (rowOfBroadcast b0))) zeroNodes) w1)) (everyNode (rowOfBroadcast b1))) zeroNodes) w2)) (everyNode (rowOfBroadcast b2))) mw1) (everyNode (rowOfBroadcast mb1))) zeroNodes) mw2) (everyScore mb2)

/-- The kernel's result: each region adds the previous layer's bias (and clamps) before its own matrix product. -/
def kernOut (x : Nodes F) (e : Edges F) (w0 : Weights F) (b0 : Bias F) (w1 : Weights F) (b1 : Bias F) (w2 : Weights F) (b2 : Bias F)
    (mw1 : Weights F) (mb1 : Bias F) (mw2 : HeadWeights F) (mb2 : (⟨S1, .f32⟩ : BufTy).Contents (Elt F)) : Scores F :=
  addf (headRelu (dense (aggregate e (denseRelu (aggregate e (denseRelu (aggregate e (dense x zeroRow w0)) (rowOfReshape b0) w1)) (rowOfReshape b1) w2)) (rowOfReshape b2) mw1) (rowOfReshape mb1) mw2) (everyScore mb2)

end Cert.Gcn

end
-- ==== Proof.ChainHead.lean ====
/-
  The first host stretch of the kernel's program, read back: before the first region is entered, the buffers it and
  the later stretches read hold the source and destination node of every edge (the edge array's two rows, each
  followed by the self loops), every edge's normalisation weight, and a row of zeros; the arguments are untouched.
  Each fact is the stretch's operations, composed in order, read at one buffer.
-/
import proofs.«131708_j48490180771963_1_alg».proof.Proof.Gen.KernelIdeal.Frame
import proofs.«131708_j48490180771963_1_alg».proof.Proof.Spec
import Idealize.ShloMosaic.Lib.StableHlo.Run

set_option maxRecDepth 16384

noncomputable section

namespace Cert.KernelIdeal.ChainHead

open Cert.KernelIdeal Cert.KernelIdeal.Gen
open Idealize.ShloMosaic Idealize.ShloMosaic.TcCoe Idealize.SL.Sem Idealize.ShloMosaic.StableHlo

set_option maxHeartbeats 4000000 in
/-- The sources of the edges, self loops appended. -/
theorem W1_src (m : (ℓ : Loc nD τ sig) → Buf (Elt Ideal) ℓ) (ρ : Dev nD → PrngReg) (c : Dev nD) : W1 (F := Ideal) m ρ c (Proc.devRef .tc main_v3) = Cert.Gcn.srcIdx (F := Ideal) (m ((c : Thread nD τ).loc main_arg1)) := by
  show StableHlo.after hostOps0 (W0 m ρ c) (Proc.devRef .tc main_v3) = _
  after_results
  rfl

set_option maxHeartbeats 4000000 in
/-- The destinations of the edges, self loops appended. -/
theorem W1_dst (m : (ℓ : Loc nD τ sig) → Buf (Elt Ideal) ℓ) (ρ : Dev nD → PrngReg) (c : Dev nD) : W1 (F := Ideal) m ρ c (Proc.devRef .tc main_v6) = Cert.Gcn.dstIdx (F := Ideal) (m ((c : Thread nD τ).loc main_arg1)) := by
  show StableHlo.after hostOps0 (W0 m ρ c) (Proc.devRef .tc main_v6) = _
  after_results
  rfl

set_option maxHeartbeats 4000000 in
/-- Every edge's weight: the reciprocal square roots of the in-degrees at its two ends, multiplied. -/
theorem W1_norm (m : (ℓ : Loc nD τ sig) → Buf (Elt Ideal) ℓ) (ρ : Dev nD → PrngReg) (c : Dev nD) : W1 (F := Ideal) m ρ c (Proc.devRef .tc main_v27) = Cert.Gcn.edgeNorm (F := Ideal) (m ((c : Thread nD τ).loc main_arg1)) := by
  show StableHlo.after hostOps0 (W0 m ρ c) (Proc.devRef .tc main_v27) = _
  after_results
  rfl

set_option maxHeartbeats 4000000 in
/-- The zero bias row the first region is given. -/
theorem W1_zeroRow (m : (ℓ : Loc nD τ sig) → Buf (Elt Ideal) ℓ) (ρ : Dev nD → PrngReg) (c : Dev nD) : W1 (F := Ideal) m ρ c (Proc.devRef .tc main_v29) = Cert.Gcn.zeroRow (F := Ideal) := by
  show StableHlo.after hostOps0 (W0 m ρ c) (Proc.devRef .tc main_v29) = _
  after_results_simp
  rfl

/-! No operation of the stretch writes an argument. -/

set_option maxHeartbeats 4000000 in
theorem W1_arg0 (m : (ℓ : Loc nD τ sig) → Buf (Elt Ideal) ℓ) (ρ : Dev nD → PrngReg) (c : Dev nD) : W1 (F := Ideal) m ρ c (Proc.devRef .tc main_arg0) = m ((c : Thread nD τ).loc main_arg0) := by
  show StableHlo.after hostOps0 (W0 m ρ c) (Proc.devRef .tc main_arg0) = _
  after_results_simp

set_option maxHeartbeats 4000000 in
theorem W1_arg2 (m : (ℓ : Loc nD τ sig) → Buf (Elt Ideal) ℓ) (ρ : Dev nD → PrngReg) (c : Dev nD) : W1 (F := Ideal) m ρ c (Proc.devRef .tc main_arg2) = m ((c : Thread nD τ).loc main_arg2) := by
  show StableHlo.after hostOps0 (W0 m ρ c) (Proc.devRef .tc main_arg2) = _
  after_results_simp

set_option maxHeartbeats 4000000 in
theorem W1_arg3 (m : (ℓ : Loc nD τ sig) → Buf (Elt Ideal) ℓ) (ρ : Dev nD → PrngReg) (c : Dev nD) : W1 (F := Ideal) m ρ c (Proc.devRef .tc main_arg3) = m ((c : Thread nD τ).loc main_arg3) := by
  show StableHlo.after hostOps0 (W0 m ρ c) (Proc.devRef .tc main_arg3) = _
  after_results_simp

set_option maxHeartbeats 4000000 in
theorem W1_arg4 (m : (ℓ : Loc nD τ sig) → Buf (Elt Ideal) ℓ) (ρ : Dev nD → PrngReg) (c : Dev nD) : W1 (F := Ideal) m ρ c (Proc.devRef .tc main_arg4) = m ((c : Thread nD τ).loc main_arg4) := by
  show StableHlo.after hostOps0 (W0 m ρ c) (Proc.devRef .tc main_arg4) = _
  after_results_simp

set_option maxHeartbeats 4000000 in
theorem W1_arg5 (m : (ℓ : Loc nD τ sig) → Buf (Elt Ideal) ℓ) (ρ : Dev nD → PrngReg) (c : Dev nD) : W1 (F := Ideal) m ρ c (Proc.devRef .tc main_arg5) = m ((c : Thread nD τ).loc main_arg5) := by
  show StableHlo.after hostOps0 (W0 m ρ c) (Proc.devRef .tc main_arg5) = _
  after_results_simp

set_option maxHeartbeats 4000000 in
theorem W1_arg6 (m : (ℓ : Loc nD τ sig) → Buf (Elt Ideal) ℓ) (ρ : Dev nD → PrngReg) (c : Dev nD) : W1 (F := Ideal) m ρ c (Proc.devRef .tc main_arg6) = m ((c : Thread nD τ).loc main_arg6) := by
  show StableHlo.after hostOps0 (W0 m ρ c) (Proc.devRef .tc main_arg6) = _
  after_results_simp

set_option maxHeartbeats 4000000 in
theorem W1_arg7 (m : (ℓ : Loc nD τ sig) → Buf (Elt Ideal) ℓ) (ρ : Dev nD → PrngReg) (c : Dev nD) : W1 (F := Ideal) m ρ c (Proc.devRef .tc main_arg7) = m ((c : Thread nD τ).loc main_arg7) := by
  show StableHlo.after hostOps0 (W0 m ρ c) (Proc.devRef .tc main_arg7) = _
  after_results_simp

set_option maxHeartbeats 4000000 in
theorem W1_arg8 (m : (ℓ : Loc nD τ sig) → Buf (Elt Ideal) ℓ) (ρ : Dev nD → PrngReg) (c : Dev nD) : W1 (F := Ideal) m ρ c (Proc.devRef .tc main_arg8) = m ((c : Thread nD τ).loc main_arg8) := by
  show StableHlo.after hostOps0 (W0 m ρ c) (Proc.devRef .tc main_arg8) = _
  after_results_simp

set_option maxHeartbeats 4000000 in
theorem W1_arg9 (m : (ℓ : Loc nD τ sig) → Buf (Elt Ideal) ℓ) (ρ : Dev nD → PrngReg) (c : Dev nD) : W1 (F := Ideal) m ρ c (Proc.devRef .tc main_arg9) = m ((c : Thread nD τ).loc main_arg9) := by
  show StableHlo.after hostOps0 (W0 m ρ c) (Proc.devRef .tc main_arg9) = _
  after_results_simp

set_option maxHeartbeats 4000000 in
theorem W1_arg10 (m : (ℓ : Loc nD τ sig) → Buf (Elt Ideal) ℓ) (ρ : Dev nD → PrngReg) (c : Dev nD) : W1 (F := Ideal) m ρ c (Proc.devRef .tc main_arg10) = m ((c : Thread nD τ).loc main_arg10) := by
  show StableHlo.after hostOps0 (W0 m ρ c) (Proc.devRef .tc main_arg10) = _
  after_results_simp

set_option maxHeartbeats 4000000 in
theorem W1_arg11 (m : (ℓ : Loc nD τ sig) → Buf (Elt Ideal) ℓ) (ρ : Dev nD → PrngReg) (c : Dev nD) : W1 (F := Ideal) m ρ c (Proc.devRef .tc main_arg11) = m ((c : Thread nD τ).loc main_arg11) := by
  show StableHlo.after hostOps0 (W0 m ρ c) (Proc.devRef .tc main_arg11) = _
  after_results_simp

end Cert.KernelIdeal.ChainHead

end
-- ==== Proof.Region0.lean ====
/- Region 0 of the kernel's program: a dense layer without a clamp, computed in ten blocks of 5000 nodes.

   Write x for the node array (50000 × 128), b for the one-row bias (1 × 128) and w for the weights (128 × 128) as
   the region finds them. Grid point t takes rows 5000·t … 5000·t + 4999 of x, adds b to each of them, multiplies
   by w, and writes the product back as rows 5000·t … 5000·t + 4999 of the output array. Entry (p, q) of that block
   is ∑ₖ (x[5000·t + p, k] + b[0, k]) · w[k, q], which is entry (5000·t + p, q) of (x + b) · w; the ten blocks
   are disjoint and fill the array, so the array ends as (x + b) · w. -/
import proofs.«131708_j48490180771963_1_alg».proof.Proof.Gen.KernelIdeal.Frame
import proofs.«131708_j48490180771963_1_alg».proof.Proof.Spec
import proofs.«131708_j48490180771963_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix2 eq_ix2)

/-- The dense layer at node r, feature q: the sum over the 128 input features k of (x[r,k] + b[0,k]) * w[k,q]. -/
theorem dense_apply (x : Cert.Gcn.Nodes Ideal) (b : Cert.Gcn.BiasRow Ideal) (w : Cert.Gcn.Weights Ideal)
    (r : Fin 50000) (q : Fin 128) :
    Cert.Gcn.dense (F := Ideal) x b w (ix2 r q)
      = ∑ k : Fin 128, (x (ix2 r k) + b (ix2 (0 : Fin 1) k)) * w (ix2 k q) := by
  unfold Cert.Gcn.dense Cert.Gcn.matN
  refine (Cert.ReferenceIdeal.Read.val_main_v28_apply _ w (ix2 r q)).trans ?_
  refine Finset.sum_congr rfl fun k _ => ?_
  have el : Cert.ReferenceIdeal.Read.lidx_main_v28 (ix2 r q) k = ix2 r k := by
    funext a; match a with | ⟨0, _⟩ => rfl | ⟨1, _⟩ => rfl
  have er : Cert.ReferenceIdeal.Read.ridx_main_v28 (ix2 r q) k = ix2 k q := by
    funext a; match a with | ⟨0, _⟩ => rfl | ⟨1, _⟩ => rfl
  rw [el, er]
  show (x (ix2 r k) + Cert.Gcn.everyNode (F := Ideal) b (ix2 r k)) * w (ix2 k q) = _
  have eb : Cert.Gcn.everyNode (F := Ideal) b (ix2 r k) = b (ix2 (0 : Fin 1) k) := by
    unfold Cert.Gcn.everyNode
    exact broadcastInDim_apply _ Cert.ReferenceIdeal.Gen.bcast_S1x128_S50000x128_0_1 b (ix2 r k) (ix2 (0 : Fin 1) k) (fun a => match a with
      | ⟨0, _⟩ => by show (0 : Nat) = if (1 : Nat) = 1 then 0 else r.val; rw [if_pos rfl]
      | ⟨1, _⟩ => by show k.val = if (128 : Nat) = 1 then 0 else k.val; rw [if_neg (by decide)])
  rw [eb]

/-! The block product's operand indices: at output entry (p, q) and contraction index k the left operand is read at
    (p, k) and the right operand at (k, q). One lemma per operand and axis. -/

theorem lhs_blk_0 (i : S5000x128.Idx) (z : dot_S5000x128_S128x128_S5000x128_1_0_0_1_n_n.contr.Idx) :
    (dot_S5000x128_S128x128_S5000x128_1_0_0_1_n_n.lhsIdx i z 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (z : dot_S5000x128_S128x128_S5000x128_1_0_0_1_n_n.contr.Idx) :
    (dot_S5000x128_S128x128_S5000x128_1_0_0_1_n_n.lhsIdx i z 1).val = (z ⟨0, by decide⟩).val :=
  dot_S5000x128_S128x128_S5000x128_1_0_0_1_n_n.lhsIdx_val_of_single rfl i z
theorem rhs_blk_0 (i : S5000x128.Idx) (z : dot_S5000x128_S128x128_S5000x128_1_0_0_1_n_n.contr.Idx) :
    (dot_S5000x128_S128x128_S5000x128_1_0_0_1_n_n.rhsIdx i z 0).val = (z ⟨0, by decide⟩).val :=
  dot_S5000x128_S128x128_S5000x128_1_0_0_1_n_n.rhsIdx_val_of_single rfl i z
theorem rhs_blk_1 (i : S5000x128.Idx) (z : dot_S5000x128_S128x128_S5000x128_1_0_0_1_n_n.contr.Idx) :
    (dot_S5000x128_S128x128_S5000x128_1_0_0_1_n_n.rhsIdx i z 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One block's result at row p, feature q: the sum over k of (x0[p,k] + x1[0,k]) * x2[k,q]. The two narrowings to
    bf16 are the identity on the extended reals, the accumulator is zero, and the bias row is repeated down the rows. -/
theorem pay_apply (x0 : Vec Ideal S5000x128 .f32) (x1 : Vec Ideal S1x128 .f32) (x2 : Vec Ideal S128x128 .f32)
    (p : Fin 5000) (q : Fin 128) :
    k0_pay1 (F := Ideal) x0 x1 x2 (ix2 p q)
      = ∑ k : Fin 128, (x0 (ix2 p k) + x1 (ix2 (0 : Fin 1) k)) * x2 (ix2 k q) := by
  show FloatOps.matmul dot_S5000x128_S128x128_S5000x128_1_0_0_1_n_n none
      (truncf .bf16 (addf x0 (broadcastTo S5000x128 (shapeCast S1x128 x1 shapeCasts_S1x128_S1x128) broadcasts_S1x128_S5000x128)) bitsLt_bf16_f32)
      (truncf .bf16 x2 bitsLt_bf16_f32) (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]
  show (x0 (ix2 p k) + broadcastTo S5000x128 (shapeCast S1x128 x1 shapeCasts_S1x128_S1x128) broadcasts_S1x128_S5000x128 (ix2 p k)) * x2 (ix2 k q) = _
  rw [shapeCast_self, broadcastTo_apply x1 broadcasts_S1x128_S5000x128 (ix2 p k) (ix2 (0 : Fin 1) k) (fun a => match a with
      | ⟨0, _⟩ => by show (0 : Nat) = if (1 : Nat) = 1 then 0 else _; rw [if_pos rfl]
      | ⟨1, _⟩ => by show k.val = if (128 : Nat) = 1 then 0 else k.val; rw [if_neg (by decide)])]

/-- The dense layer's entry (r, q) from one block's entry (p, q), when the block's row p is the array's row r, the
    bias row is the array's, and the weights' column q is the array's. -/
theorem block_entry (X : Cert.Gcn.Nodes Ideal) (B : Cert.Gcn.BiasRow Ideal) (W : Cert.Gcn.Weights Ideal)
    (x0 : Vec Ideal S5000x128 .f32) (x1 : Vec Ideal S1x128 .f32) (x2 : Vec Ideal S128x128 .f32)
    (p : Fin 5000) (q : Fin 128) (r : Fin 50000)
    (h0 : ∀ k : Fin 128, x0 (ix2 p k) = X (ix2 r k))
    (h1 : ∀ k : Fin 128, x1 (ix2 (0 : Fin 1) k) = B (ix2 (0 : Fin 1) k))
    (h2 : ∀ k : Fin 128, x2 (ix2 k q) = W (ix2 k q)) :
    k0_pay1 (F := Ideal) x0 x1 x2 (ix2 p q) = Cert.Gcn.dense (F := Ideal) X B W (ix2 r q) := by
  rw [pay_apply, dense_apply]
  exact Finset.sum_congr rfl fun k _ => by rw [h0 k, h1 k, h2 k]

/-! ## From the ten blocks to the array -/

theorem zero_offsets : (![0, 0] : Fin 2 → Nat) = fun _ => 0 :=
  funext fun a => match a with | ⟨0, _⟩ => rfl | ⟨1, _⟩ => rfl

/-- The block indices at grid point t: the node block and the output block are block t of their arrays (rows
    5000·t … 5000·t + 4999); the bias row and the weights are whole, at block index zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := by
  have h := t.isLt
  have hN : cfg0.N = 10 := N_0
  omega

variable (V : (c : Dev nD) → (b : Ref sig .tc) → Buf (Elt Ideal) ((c : Thread nD τ).loc b))

/-- Row p of the node block at point t is row 5000·t + p of the node array. -/
theorem read_nodes (c : Dev nD) (t : Fin cfg0.N) (p : Fin 5000) (k : Fin 128) (h : t.val * 5000 + p.val < 50000) :
    iblk0 (F := Ideal) V c 0 t (ix2 p k) = V c main_arg0 (ix2 (⟨t.val * 5000 + p.val, h⟩ : Fin 50000) k) := by
  unfold iblk0
  show V c main_arg0 (((cfg0.win 0).blk t).view.emb (ix2 p k)) = _
  obtain ⟨e0, e1, -⟩ := block_indices t
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The bias block at every point is the whole bias row. -/
theorem read_bias (c : Dev nD) (t : Fin cfg0.N) (k : Fin 128) :
    iblk0 (F := Ideal) V c 1 t (ix2 (0 : Fin 1) k) = V c main_v29 (ix2 (0 : Fin 1) k) := by
  unfold iblk0
  show V c main_v29 (((cfg0.win 1).blk t).view.emb (ix2 (0 : Fin 1) k)) = _
  obtain ⟨-, -, e2, e3, -⟩ := block_indices t
  refine congrArg _ (funext fun a => Fin.ext ?_)
  match a with
  | ⟨0, _⟩ => show win0_1.index t (0 : Fin 2) * 1 + 1 * 0 = 0; omega
  | ⟨1, _⟩ => show win0_1.index t (1 : Fin 2) * 128 + 1 * k.val = k.val; omega

/-- The weight block at every point is the whole weight matrix. -/
theorem read_weights (c : Dev nD) (t : Fin cfg0.N) (k q : Fin 128) :
    iblk0 (F := Ideal) V c 2 t (ix2 k q) = V c main_arg2 (ix2 k q) := by
  unfold iblk0
  show V c main_arg2 (((cfg0.win 2).blk t).view.emb (ix2 k q)) = _
  obtain ⟨-, -, -, -, e4, e5, -⟩ := block_indices t
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- What point t writes back is block t of the dense layer of the three arrays as the region found them. -/
theorem flushed_eq (c : Dev nD) (t : Fin cfg0.N) :
    (dat0 (F := Ideal) V c).flushed 3 t
      = ((cfg0.win 3).blk t).view.read (Elt Ideal) (Cert.Gcn.dense (F := Ideal) (V c main_arg0) (V c main_v29) (V c main_arg2)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S1x128) zero_offsets, View.ld_unit_zero (S := S128x128) zero_offsets]
  funext j
  obtain ⟨p, q, rfl⟩ : ∃ (p : Fin 5000) (q : Fin 128), j = ix2 p q := ⟨j 0, j 1, eq_ix2 j⟩
  have ht := point_lt t
  have hrow : t.val * 5000 + p.val < 50000 := by have := p.isLt; omega
  obtain ⟨-, -, -, -, -, -, e6, e7⟩ := block_indices t
  have eout : ((cfg0.win 3).blk t).view.emb (ix2 p q) = ix2 (⟨t.val * 5000 + p.val, hrow⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
    = Cert.Gcn.dense (F := Ideal) (V c main_arg0) (V c main_v29) (V c main_arg2) (((cfg0.win 3).blk t).view.emb (ix2 p q))
  rw [eout]
  exact block_entry (V c main_arg0) (V c main_v29) (V c main_arg2) _ _ _ p q ⟨_, hrow⟩
    (fun k => read_nodes V c t p k hrow) (fun k => read_bias V c t k) (fun k => read_weights V c t k q)

/-- An array index is in point t's output block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v30).slice (win0_3.rect t)).set ↔ _
  rw [View.set_slice_whole, Rect.mem_set_unit]
  exact Iff.rfl

/-- Every row r of the output array lies in the block of point r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, e6, e7⟩ := block_indices t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

theorem final0 (c : Dev nD) :
    (dat0 (F := Ideal) V c).arrAt 3 cfg0.N = Cert.Gcn.dense (F := Ideal) (V c main_arg0) (V c main_v29) (V c main_arg2) :=
  (dat0 (F := Ideal) V c).arrAt_eq_of_cover 3 _ (fun t _ => flushed_eq V c t) covered

end Cert.KernelIdeal.Region0

end
-- ==== Proof.Region1.lean ====
/- Region 1 of the kernel's program: one clamped dense layer, computed in ten row blocks.

   The region reads a node array x (50000 × 128), a bias row b (1 × 128) and a weight matrix w (128 × 128). At grid
   point t it takes rows 5000·t … 5000·t + 4999 of x, adds b to each of them, clamps at zero, multiplies by w and
   writes the product back as rows 5000·t … 5000·t + 4999 of the output array. Entry (p, q) of that product is
   ∑ k, max (x (5000·t + p, k) + b (0, k)) 0 · w (k, q), which depends on row 5000·t + p of x only; it is entry
   (5000·t + p, q) of max (x + b, 0) · w. The ten blocks tile the 50000 rows (row r lies in block r / 5000), so the
   output array ends as max (x + b, 0) · w, whole. -/
import proofs.«131708_j48490180771963_1_alg».proof.Proof.Gen.KernelIdeal.Frame
import proofs.«131708_j48490180771963_1_alg».proof.Proof.Spec
import proofs.«131708_j48490180771963_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The closed form at an entry -/

/-- The clamp's floor: the extended real that the all-zero f32 word encodes. -/
abbrev floor0 : EReal := Ideal.ofBits .f32 0x00000000#32

/-- The bias row repeated for every node, at node r and feature k: the row's entry for feature k. -/
theorem everyNode_apply (b : Cert.Gcn.BiasRow Ideal) (r : Fin 50000) (k : Fin 128) :
    Cert.Gcn.everyNode (F := Ideal) b (ix2 r k) = b (ix2 (0 : Fin 1) k) := by
  unfold Cert.Gcn.everyNode
  exact broadcastInDim_apply _ _ b (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])

/-- The all-zero node array at any entry: the floor. -/
theorem zeroNodes_apply (r : Fin 50000) (k : Fin 128) :
    Cert.Gcn.zeroNodes (F := Ideal) (ix2 r k) = floor0 := by
  unfold Cert.Gcn.zeroNodes
  exact broadcastInDim_apply _ _ (constant (F := Ideal) _ .f32 0x00000000#32) (ix2 r k) ix0 (fun a => a.elim0)

/-- Entry (r, q) of max (x + b, 0) · w: the sum over the 128 features k of max (x (r, k) + b (0, k)) 0 · w (k, q).
    Only row r of x enters. -/
theorem denseRelu_apply (x : Cert.Gcn.Nodes Ideal) (b : Cert.Gcn.BiasRow Ideal) (w : Cert.Gcn.Weights Ideal)
    (r : Fin 50000) (q : Fin 128) :
    Cert.Gcn.denseRelu (F := Ideal) x b w (ix2 r q)
      = ∑ k : Fin 128, max (x (ix2 r k) + b (ix2 (0 : Fin 1) k)) floor0 * w (ix2 k q) := by
  show Cert.ReferenceIdeal.Read.val_main_v28 (F := Ideal) _ w (ix2 r q) = _
  rw [Cert.ReferenceIdeal.Read.val_main_v28_apply]
  refine Finset.sum_congr rfl fun k _ => ?_
  have el : Cert.ReferenceIdeal.Read.lidx_main_v28 (ix2 r q) k = ix2 r k :=
    funext fun a => match a with | ⟨0, _⟩ => rfl | ⟨1, _⟩ => rfl
  have er : Cert.ReferenceIdeal.Read.ridx_main_v28 (ix2 r q) k = ix2 k q :=
    funext fun a => match a with | ⟨0, _⟩ => rfl | ⟨1, _⟩ => rfl
  rw [el, er, maximumf_apply, addf_apply, everyNode_apply, zeroNodes_apply]

/-! ## The body's product at an entry -/

/-- The block product's left operand index at output entry i and contraction index q keeps i's row … -/
theorem lhs_blockDot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and takes the contraction index as its column; -/
theorem lhs_blockDot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand index takes the contraction index as its row … -/
theorem rhs_blockDot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps i's column. -/
theorem rhs_blockDot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at entry (p, q): row p of the left block against column q of the
    right one, summed over the 128 features. -/
theorem blockDot_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul dot_S5000x128_S128x128_S5000x128_1_0_0_1_n_n none a w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blockDot_0 _ _
    | ⟨1, _⟩ => exact (lhs_blockDot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blockDot_0 _ _).trans hk
    | ⟨1, _⟩ => exact rhs_blockDot_1 _ _)
  rw [el, er]

/-- The bias row laid down the 5000 rows of a block, at row p and feature k: the row's entry for feature k. -/
theorem rowDown_apply (x1 : Vec Ideal S1x128 .f32) (p : Fin 5000) (k : Fin 128) :
    broadcastTo S5000x128 (shapeCast S1x128 x1 shapeCasts_S1x128_S1x128) broadcasts_S1x128_S5000x128 (ix2 p k) = x1 (ix2 (0 : Fin 1) k) := by
  rw [shapeCast_self]
  exact broadcastTo_apply x1 broadcasts_S1x128_S5000x128 (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])

/-- What the body computes from its three loaded blocks, at entry (p, q): the sum over the features k of
    max (x0 (p, k) + x1 (0, k)) 0 · x2 (k, q). The two narrowings to bf16 are the identity on extended reals. -/
theorem body_apply (x0 : Vec Ideal S5000x128 .f32) (x1 : Vec Ideal S1x128 .f32) (x2 : Vec Ideal S128x128 .f32) (p : Fin 5000) (q : Fin 128) :
    k1_pay1 (F := Ideal) x0 x1 x2 (ix2 p q)
      = ∑ k : Fin 128, max (x0 (ix2 p k) + x1 (ix2 (0 : Fin 1) k)) floor0 * x2 (ix2 k q) := by
  unfold k1_pay1
  rw [blockDot_apply]
  refine Finset.sum_congr rfl fun k _ => ?_
  rw [truncf_apply, truncf_apply, maximumf_apply, addf_apply, shapeCast_self, rowDown_apply]
  rw [broadcast_apply]
  rfl

/-! ## The blocks, read off their arrays -/

/-- The whole-buffer rectangle starts at the origin. -/
theorem originOffsets : (![0, 0] : Fin 2 → Nat) = fun _ => 0 := funext fun a => by fin_cases a <;> rfl

/-- The block index of each of the four arrays at grid point t: the node array and the output array are at row
    block t, column block 0; the bias row and the weights are at block (0, 0) at every point. -/
theorem blockIdx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the node block at point t is entry (5000·t + p, k) of the node array. -/
theorem nodeBlock_apply (c : Dev nD) (t : Fin cfg1.N) (p : Fin 5000) (k : Fin 128) (r : Fin 50000)
    (hr : r.val = t.val * 5000 + p.val) :
    iblk1 (F := Ideal) V c 0 t (ix2 p k) = (V c main_v42 : S50000x128.Idx → Elt Ideal .f32) (ix2 r k) := by
  obtain ⟨e0, e1, -⟩ := blockIdx t
  show (V c main_v42 : S50000x128.Idx → Elt Ideal .f32) (((cfg1.win 0).blk t).view.emb (ix2 p k)) = _
  refine congrArg (V c main_v42 : S50000x128.Idx → Elt Ideal .f32) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The bias block at every point is the bias row itself. -/
theorem biasBlock_apply (c : Dev nD) (t : Fin cfg1.N) (k : Fin 128) :
    iblk1 (F := Ideal) V c 1 t (ix2 (0 : Fin 1) k) = (V c main_v43 : S1x128.Idx → Elt Ideal .f32) (ix2 (0 : Fin 1) k) := by
  obtain ⟨-, -, e2, e3, -⟩ := blockIdx t
  show (V c main_v43 : S1x128.Idx → Elt Ideal .f32) (((cfg1.win 1).blk t).view.emb (ix2 (0 : Fin 1) k)) = _
  refine congrArg (V c main_v43 : S1x128.Idx → Elt Ideal .f32) (funext fun a => Fin.ext ?_)
  match a with
  | ⟨0, _⟩ => show win1_1.index t (0 : Fin 2) * 1 + 1 * 0 = 0; rw [e2]
  | ⟨1, _⟩ => show win1_1.index t (1 : Fin 2) * 128 + 1 * k.val = k.val; rw [e3]; omega

/-- The weight block at every point is the weight matrix itself. -/
theorem weightBlock_apply (c : Dev nD) (t : Fin cfg1.N) (k q : Fin 128) :
    iblk1 (F := Ideal) V c 2 t (ix2 k q) = (V c main_arg4 : S128x128.Idx → Elt Ideal .f32) (ix2 k q) := by
  obtain ⟨-, -, -, -, e4, e5, -⟩ := blockIdx t
  show (V c main_arg4 : S128x128.Idx → Elt Ideal .f32) (((cfg1.win 2).blk t).view.emb (ix2 k q)) = _
  refine congrArg (V c main_arg4 : S128x128.Idx → Elt Ideal .f32) (funext fun a => Fin.ext ?_)
  match a with
  | ⟨0, _⟩ => show win1_2.index t (0 : Fin 2) * 128 + 1 * k.val = k.val; rw [e4]; omega
  | ⟨1, _⟩ => show win1_2.index t (1 : Fin 2) * 128 + 1 * q.val = q.val; rw [e5]; omega

/-! ## From the blocks to the array -/

/-- What point t writes back is rows 5000·t … 5000·t + 4999 of max (x + b, 0) · w: entry (p, q) of the body's
    product and entry (5000·t + p, q) of the closed form are the same sum, feature by feature. -/
theorem writeBack_eq (c : Dev nD) (t : Fin cfg1.N) :
    (dat1 (F := Ideal) V c).flushed 3 t = ((cfg1.win 3).blk t).view.read (Elt Ideal) (Cert.Gcn.denseRelu (F := Ideal) (V c main_v42) (V c main_v43) (V c main_arg4)) := by
  show (cfg1.win 3).cut (grid1.coords t) ((dat1 (F := Ideal) V c).after 3 t) = _
  rw [after1_3]
  unfold out1_3
  rw [View.canon_unit_zero originOffsets]
  simp only [View.ld_unit_zero (S := S5000x128) originOffsets, View.ld_unit_zero (S := S1x128) originOffsets, View.ld_unit_zero (S := S128x128) originOffsets]
  funext j
  obtain ⟨p, q, rfl⟩ : ∃ (p : Fin 5000) (q : Fin 128), j = ix2 p q := ⟨j 0, j 1, eq_ix2 j⟩
  have hN : cfg1.N = 10 := N_1
  have ht : t.val < 10 := by have := t.isLt; omega
  obtain ⟨-, -, -, -, -, -, e6, e7⟩ := blockIdx t
  have hemb : ((cfg1.win 3).blk t).view.emb (ix2 p q) = ix2 (⟨t.val * 5000 + p.val, by omega⟩ : Fin 50000) q := funext fun a => Fin.ext (by
    match a with
    | ⟨0, _⟩ => show win1_3.index t (0 : Fin 2) * 5000 + 1 * p.val = t.val * 5000 + p.val; rw [e6]; omega
    | ⟨1, _⟩ => show win1_3.index t (1 : Fin 2) * 128 + 1 * q.val = q.val; rw [e7]; omega)
  show k1_pay1 (F := Ideal) (iblk1 V c 0 t) (iblk1 V c 1 t) (iblk1 V c 2 t) (ix2 p q) = Cert.Gcn.denseRelu (F := Ideal) (V c main_v42) (V c main_v43) (V c main_arg4) (((cfg1.win 3).blk t).view.emb (ix2 p q))
  refine (body_apply (iblk1 V c 0 t) (iblk1 V c 1 t) (iblk1 V c 2 t) p q).trans ?_
  refine Eq.trans ?_ (congrArg (Cert.Gcn.denseRelu (F := Ideal) (V c main_v42) (V c main_v43) (V c main_arg4)) hemb).symm
  refine Eq.trans ?_ (denseRelu_apply (V c main_v42) (V c main_v43) (V c main_arg4) ⟨t.val * 5000 + p.val, by omega⟩ q).symm
  refine Finset.sum_congr rfl fun k _ => ?_
  rw [nodeBlock_apply V c t p k ⟨t.val * 5000 + p.val, by omega⟩ rfl, biasBlock_apply V c t k, weightBlock_apply V c t k q]

/-- An entry of the output array is in point t's block iff, on each axis, its coordinate is in the block's range. -/
theorem mem_rowBlock (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v44).slice (win1_3.rect t)).set ↔ _
  rw [View.set_slice_whole, Rect.mem_set_unit]
  exact Iff.rfl

/-- Every entry of the output array is written back by some point: row r is in the block of point r / 5000. -/
theorem rows_covered (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e6, e7⟩ := blockIdx t
  refine ⟨t, flush1_3 t, ?_⟩
  rw [mem_rowBlock]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 128 ≤ (i 1).val ∧ (i 1).val < win1_3.index t (1 : Fin 2) * 128 + 128; rw [e7]; omega

/-- After the region's run the output array is max (x + b, 0) · w of the three input arrays as the region found them. -/
theorem final1 (c : Dev nD) :
    (dat1 (F := Ideal) V c).arrAt 3 cfg1.N = Cert.Gcn.denseRelu (F := Ideal) (V c main_v42) (V c main_v43) (V c main_arg4) :=
  (dat1 (F := Ideal) V c).arrAt_eq_of_cover 3 _ (fun t _ => writeBack_eq V c t) rows_covered

end Cert.KernelIdeal.Region1

end
-- ==== Proof.Region2.lean ====
/- Region 2 of the kernel's program: one clamped dense layer, computed in ten row blocks.

   The region reads a node array x (50000 × 128), a bias row b (1 × 128) and a weight matrix w (128 × 128). At grid
   point t it takes rows 5000·t … 5000·t + 4999 of x, adds b to each of them, clamps at zero, multiplies by w and
   writes the product back as rows 5000·t … 5000·t + 4999 of the output array. Entry (p, q) of that product is
   ∑ k, max (x (5000·t + p, k) + b (0, k)) 0 · w (k, q), which depends on row 5000·t + p of x only; it is entry
   (5000·t + p, q) of max (x + b, 0) · w. The ten blocks tile the 50000 rows (row r lies in block r / 5000), so the
   output array ends as max (x + b, 0) · w, whole. -/
import proofs.«131708_j48490180771963_1_alg».proof.Proof.Gen.KernelIdeal.Frame
import proofs.«131708_j48490180771963_1_alg».proof.Proof.Spec
import proofs.«131708_j48490180771963_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The closed form at an entry -/

/-- The clamp's floor: the extended real that the all-zero f32 word encodes. -/
abbrev floor0 : EReal := Ideal.ofBits .f32 0x00000000#32

/-- The bias row repeated for every node, at node r and feature k: the row's entry for feature k. -/
theorem everyNode_apply (b : Cert.Gcn.BiasRow Ideal) (r : Fin 50000) (k : Fin 128) :
    Cert.Gcn.everyNode (F := Ideal) b (ix2 r k) = b (ix2 (0 : Fin 1) k) := by
  unfold Cert.Gcn.everyNode
  exact broadcastInDim_apply _ _ b (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])

/-- The all-zero node array at any entry: the floor. -/
theorem zeroNodes_apply (r : Fin 50000) (k : Fin 128) :
    Cert.Gcn.zeroNodes (F := Ideal) (ix2 r k) = floor0 := by
  unfold Cert.Gcn.zeroNodes
  exact broadcastInDim_apply _ _ (constant (F := Ideal) _ .f32 0x00000000#32) (ix2 r k) ix0 (fun a => a.elim0)

/-- Entry (r, q) of max (x + b, 0) · w: the sum over the 128 features k of max (x (r, k) + b (0, k)) 0 · w (k, q).
    Only row r of x enters. -/
theorem denseRelu_apply (x : Cert.Gcn.Nodes Ideal) (b : Cert.Gcn.BiasRow Ideal) (w : Cert.Gcn.Weights Ideal)
    (r : Fin 50000) (q : Fin 128) :
    Cert.Gcn.denseRelu (F := Ideal) x b w (ix2 r q)
      = ∑ k : Fin 128, max (x (ix2 r k) + b (ix2 (0 : Fin 1) k)) floor0 * w (ix2 k q) := by
  show Cert.ReferenceIdeal.Read.val_main_v28 (F := Ideal) _ w (ix2 r q) = _
  rw [Cert.ReferenceIdeal.Read.val_main_v28_apply]
  refine Finset.sum_congr rfl fun k _ => ?_
  have el : Cert.ReferenceIdeal.Read.lidx_main_v28 (ix2 r q) k = ix2 r k :=
    funext fun a => match a with | ⟨0, _⟩ => rfl | ⟨1, _⟩ => rfl
  have er : Cert.ReferenceIdeal.Read.ridx_main_v28 (ix2 r q) k = ix2 k q :=
    funext fun a => match a with | ⟨0, _⟩ => rfl | ⟨1, _⟩ => rfl
  rw [el, er, maximumf_apply, addf_apply, everyNode_apply, zeroNodes_apply]

/-! ## The body's product at an entry -/

/-- The block product's left operand index at output entry i and contraction index q keeps i's row … -/
theorem lhs_blockDot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and takes the contraction index as its column; -/
theorem lhs_blockDot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand index takes the contraction index as its row … -/
theorem rhs_blockDot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps i's column. -/
theorem rhs_blockDot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at entry (p, q): row p of the left block against column q of the
    right one, summed over the 128 features. -/
theorem blockDot_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul dot_S5000x128_S128x128_S5000x128_1_0_0_1_n_n none a w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blockDot_0 _ _
    | ⟨1, _⟩ => exact (lhs_blockDot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blockDot_0 _ _).trans hk
    | ⟨1, _⟩ => exact rhs_blockDot_1 _ _)
  rw [el, er]

/-- The bias row laid down the 5000 rows of a block, at row p and feature k: the row's entry for feature k. -/
theorem rowDown_apply (x1 : Vec Ideal S1x128 .f32) (p : Fin 5000) (k : Fin 128) :
    broadcastTo S5000x128 (shapeCast S1x128 x1 shapeCasts_S1x128_S1x128) broadcasts_S1x128_S5000x128 (ix2 p k) = x1 (ix2 (0 : Fin 1) k) := by
  rw [shapeCast_self]
  exact broadcastTo_apply x1 broadcasts_S1x128_S5000x128 (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])

/-- What the body computes from its three loaded blocks, at entry (p, q): the sum over the features k of
    max (x0 (p, k) + x1 (0, k)) 0 · x2 (k, q). The two narrowings to bf16 are the identity on extended reals. -/
theorem body_apply (x0 : Vec Ideal S5000x128 .f32) (x1 : Vec Ideal S1x128 .f32) (x2 : Vec Ideal S128x128 .f32) (p : Fin 5000) (q : Fin 128) :
    k2_pay1 (F := Ideal) x0 x1 x2 (ix2 p q)
      = ∑ k : Fin 128, max (x0 (ix2 p k) + x1 (ix2 (0 : Fin 1) k)) floor0 * x2 (ix2 k q) := by
  unfold k2_pay1
  rw [blockDot_apply]
  refine Finset.sum_congr rfl fun k _ => ?_
  rw [truncf_apply, truncf_apply, maximumf_apply, addf_apply, shapeCast_self, rowDown_apply]
  rw [broadcast_apply]
  rfl

/-! ## The blocks, read off their arrays -/

/-- The whole-buffer rectangle starts at the origin. -/
theorem originOffsets : (![0, 0] : Fin 2 → Nat) = fun _ => 0 := funext fun a => by fin_cases a <;> rfl

/-- The block index of each of the four arrays at grid point t: the node array and the output array are at row
    block t, column block 0; the bias row and the weights are at block (0, 0) at every point. -/
theorem blockIdx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, k) of the node block at point t is entry (5000·t + p, k) of the node array. -/
theorem nodeBlock_apply (c : Dev nD) (t : Fin cfg2.N) (p : Fin 5000) (k : Fin 128) (r : Fin 50000)
    (hr : r.val = t.val * 5000 + p.val) :
    iblk2 (F := Ideal) V c 0 t (ix2 p k) = (V c main_v56 : S50000x128.Idx → Elt Ideal .f32) (ix2 r k) := by
  obtain ⟨e0, e1, -⟩ := blockIdx t
  show (V c main_v56 : S50000x128.Idx → Elt Ideal .f32) (((cfg2.win 0).blk t).view.emb (ix2 p k)) = _
  refine congrArg (V c main_v56 : S50000x128.Idx → Elt Ideal .f32) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The bias block at every point is the bias row itself. -/
theorem biasBlock_apply (c : Dev nD) (t : Fin cfg2.N) (k : Fin 128) :
    iblk2 (F := Ideal) V c 1 t (ix2 (0 : Fin 1) k) = (V c main_v57 : S1x128.Idx → Elt Ideal .f32) (ix2 (0 : Fin 1) k) := by
  obtain ⟨-, -, e2, e3, -⟩ := blockIdx t
  show (V c main_v57 : S1x128.Idx → Elt Ideal .f32) (((cfg2.win 1).blk t).view.emb (ix2 (0 : Fin 1) k)) = _
  refine congrArg (V c main_v57 : S1x128.Idx → Elt Ideal .f32) (funext fun a => Fin.ext ?_)
  match a with
  | ⟨0, _⟩ => show win2_1.index t (0 : Fin 2) * 1 + 1 * 0 = 0; rw [e2]
  | ⟨1, _⟩ => show win2_1.index t (1 : Fin 2) * 128 + 1 * k.val = k.val; rw [e3]; omega

/-- The weight block at every point is the weight matrix itself. -/
theorem weightBlock_apply (c : Dev nD) (t : Fin cfg2.N) (k q : Fin 128) :
    iblk2 (F := Ideal) V c 2 t (ix2 k q) = (V c main_arg6 : S128x128.Idx → Elt Ideal .f32) (ix2 k q) := by
  obtain ⟨-, -, -, -, e4, e5, -⟩ := blockIdx t
  show (V c main_arg6 : S128x128.Idx → Elt Ideal .f32) (((cfg2.win 2).blk t).view.emb (ix2 k q)) = _
  refine congrArg (V c main_arg6 : S128x128.Idx → Elt Ideal .f32) (funext fun a => Fin.ext ?_)
  match a with
  | ⟨0, _⟩ => show win2_2.index t (0 : Fin 2) * 128 + 1 * k.val = k.val; rw [e4]; omega
  | ⟨1, _⟩ => show win2_2.index t (1 : Fin 2) * 128 + 1 * q.val = q.val; rw [e5]; omega

/-! ## From the blocks to the array -/

/-- What point t writes back is rows 5000·t … 5000·t + 4999 of max (x + b, 0) · w: entry (p, q) of the body's
    product and entry (5000·t + p, q) of the closed form are the same sum, feature by feature. -/
theorem writeBack_eq (c : Dev nD) (t : Fin cfg2.N) :
    (dat2 (F := Ideal) V c).flushed 3 t = ((cfg2.win 3).blk t).view.read (Elt Ideal) (Cert.Gcn.denseRelu (F := Ideal) (V c main_v56) (V c main_v57) (V c main_arg6)) := by
  show (cfg2.win 3).cut (grid2.coords t) ((dat2 (F := Ideal) V c).after 3 t) = _
  rw [after2_3]
  unfold out2_3
  rw [View.canon_unit_zero originOffsets]
  simp only [View.ld_unit_zero (S := S5000x128) originOffsets, View.ld_unit_zero (S := S1x128) originOffsets, View.ld_unit_zero (S := S128x128) originOffsets]
  funext j
  obtain ⟨p, q, rfl⟩ : ∃ (p : Fin 5000) (q : Fin 128), j = ix2 p q := ⟨j 0, j 1, eq_ix2 j⟩
  have hN : cfg2.N = 10 := N_2
  have ht : t.val < 10 := by have := t.isLt; omega
  obtain ⟨-, -, -, -, -, -, e6, e7⟩ := blockIdx t
  have hemb : ((cfg2.win 3).blk t).view.emb (ix2 p q) = ix2 (⟨t.val * 5000 + p.val, by omega⟩ : Fin 50000) q := funext fun a => Fin.ext (by
    match a with
    | ⟨0, _⟩ => show win2_3.index t (0 : Fin 2) * 5000 + 1 * p.val = t.val * 5000 + p.val; rw [e6]; omega
    | ⟨1, _⟩ => show win2_3.index t (1 : Fin 2) * 128 + 1 * q.val = q.val; rw [e7]; omega)
  show k2_pay1 (F := Ideal) (iblk2 V c 0 t) (iblk2 V c 1 t) (iblk2 V c 2 t) (ix2 p q) = Cert.Gcn.denseRelu (F := Ideal) (V c main_v56) (V c main_v57) (V c main_arg6) (((cfg2.win 3).blk t).view.emb (ix2 p q))
  refine (body_apply (iblk2 V c 0 t) (iblk2 V c 1 t) (iblk2 V c 2 t) p q).trans ?_
  refine Eq.trans ?_ (congrArg (Cert.Gcn.denseRelu (F := Ideal) (V c main_v56) (V c main_v57) (V c main_arg6)) hemb).symm
  refine Eq.trans ?_ (denseRelu_apply (V c main_v56) (V c main_v57) (V c main_arg6) ⟨t.val * 5000 + p.val, by omega⟩ q).symm
  refine Finset.sum_congr rfl fun k _ => ?_
  rw [nodeBlock_apply V c t p k ⟨t.val * 5000 + p.val, by omega⟩ rfl, biasBlock_apply V c t k, weightBlock_apply V c t k q]

/-- An entry of the output array is in point t's block iff, on each axis, its coordinate is in the block's range. -/
theorem mem_rowBlock (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v58).slice (win2_3.rect t)).set ↔ _
  rw [View.set_slice_whole, Rect.mem_set_unit]
  exact Iff.rfl

/-- Every entry of the output array is written back by some point: row r is in the block of point r / 5000. -/
theorem rows_covered (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, e6, e7⟩ := blockIdx t
  refine ⟨t, flush2_3 t, ?_⟩
  rw [mem_rowBlock]
  intro a
  match a with
  | ⟨0, _⟩ => show win2_3.index t (0 : Fin 2) * 5000 ≤ (i 0).val ∧ (i 0).val < win2_3.index t (0 : Fin 2) * 5000 + 5000; rw [e6, ht]; omega
  | ⟨1, _⟩ => show win2_3.index t (1 : Fin 2) * 128 ≤ (i 1).val ∧ (i 1).val < win2_3.index t (1 : Fin 2) * 128 + 128; rw [e7]; omega

/-- After the region's run the output array is max (x + b, 0) · w of the three input arrays as the region found them. -/
theorem final2 (c : Dev nD) :
    (dat2 (F := Ideal) V c).arrAt 3 cfg2.N = Cert.Gcn.denseRelu (F := Ideal) (V c main_v56) (V c main_v57) (V c main_arg6) :=
  (dat2 (F := Ideal) V c).arrAt_eq_of_cover 3 _ (fun t _ => writeBack_eq V c t) rows_covered

end Cert.KernelIdeal.Region2

end
-- ==== Proof.Region3.lean ====
/- Region 3 of the kernel's program: a dense layer without a clamp, computed in ten blocks of 5000 nodes.

   Write x for the node array (50000 × 128), b for the one-row bias (1 × 128) and w for the weights (128 × 128) as
   the region finds them. Grid point t takes rows 5000·t … 5000·t + 4999 of x, adds b to each of them, multiplies
   by w, and writes the product back as rows 5000·t … 5000·t + 4999 of the output array. Entry (p, q) of that block
   is ∑ₖ (x[5000·t + p, k] + b[0, k]) · w[k, q], which is entry (5000·t + p, q) of (x + b) · w; the ten blocks
   are disjoint and fill the array, so the array ends as (x + b) · w. -/
import proofs.«131708_j48490180771963_1_alg».proof.Proof.Gen.KernelIdeal.Frame
import proofs.«131708_j48490180771963_1_alg».proof.Proof.Spec
import proofs.«131708_j48490180771963_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix2 eq_ix2)

/-- The dense layer at node r, feature q: the sum over the 128 input features k of (x[r,k] + b[0,k]) * w[k,q]. -/
theorem dense_apply (x : Cert.Gcn.Nodes Ideal) (b : Cert.Gcn.BiasRow Ideal) (w : Cert.Gcn.Weights Ideal)
    (r : Fin 50000) (q : Fin 128) :
    Cert.Gcn.dense (F := Ideal) x b w (ix2 r q)
      = ∑ k : Fin 128, (x (ix2 r k) + b (ix2 (0 : Fin 1) k)) * w (ix2 k q) := by
  unfold Cert.Gcn.dense Cert.Gcn.matN
  refine (Cert.ReferenceIdeal.Read.val_main_v28_apply _ w (ix2 r q)).trans ?_
  refine Finset.sum_congr rfl fun k _ => ?_
  have el : Cert.ReferenceIdeal.Read.lidx_main_v28 (ix2 r q) k = ix2 r k := by
    funext a; match a with | ⟨0, _⟩ => rfl | ⟨1, _⟩ => rfl
  have er : Cert.ReferenceIdeal.Read.ridx_main_v28 (ix2 r q) k = ix2 k q := by
    funext a; match a with | ⟨0, _⟩ => rfl | ⟨1, _⟩ => rfl
  rw [el, er]
  show (x (ix2 r k) + Cert.Gcn.everyNode (F := Ideal) b (ix2 r k)) * w (ix2 k q) = _
  have eb : Cert.Gcn.everyNode (F := Ideal) b (ix2 r k) = b (ix2 (0 : Fin 1) k) := by
    unfold Cert.Gcn.everyNode
    exact broadcastInDim_apply _ Cert.ReferenceIdeal.Gen.bcast_S1x128_S50000x128_0_1 b (ix2 r k) (ix2 (0 : Fin 1) k) (fun a => match a with
      | ⟨0, _⟩ => by show (0 : Nat) = if (1 : Nat) = 1 then 0 else r.val; rw [if_pos rfl]
      | ⟨1, _⟩ => by show k.val = if (128 : Nat) = 1 then 0 else k.val; rw [if_neg (by decide)])
  rw [eb]

/-! The block product's operand indices: at output entry (p, q) and contraction index k the left operand is read at
    (p, k) and the right operand at (k, q). One lemma per operand and axis. -/

theorem lhs_blk_0 (i : S5000x128.Idx) (z : dot_S5000x128_S128x128_S5000x128_1_0_0_1_n_n.contr.Idx) :
    (dot_S5000x128_S128x128_S5000x128_1_0_0_1_n_n.lhsIdx i z 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (z : dot_S5000x128_S128x128_S5000x128_1_0_0_1_n_n.contr.Idx) :
    (dot_S5000x128_S128x128_S5000x128_1_0_0_1_n_n.lhsIdx i z 1).val = (z ⟨0, by decide⟩).val :=
  dot_S5000x128_S128x128_S5000x128_1_0_0_1_n_n.lhsIdx_val_of_single rfl i z
theorem rhs_blk_0 (i : S5000x128.Idx) (z : dot_S5000x128_S128x128_S5000x128_1_0_0_1_n_n.contr.Idx) :
    (dot_S5000x128_S128x128_S5000x128_1_0_0_1_n_n.rhsIdx i z 0).val = (z ⟨0, by decide⟩).val :=
  dot_S5000x128_S128x128_S5000x128_1_0_0_1_n_n.rhsIdx_val_of_single rfl i z
theorem rhs_blk_1 (i : S5000x128.Idx) (z : dot_S5000x128_S128x128_S5000x128_1_0_0_1_n_n.contr.Idx) :
    (dot_S5000x128_S128x128_S5000x128_1_0_0_1_n_n.rhsIdx i z 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One block's result at row p, feature q: the sum over k of (x0[p,k] + x1[0,k]) * x2[k,q]. The two narrowings to
    bf16 and the two same-shape casts are the identity on the extended reals, the accumulator is zero, and the bias row
    is repeated down the rows. -/
theorem pay_apply (x0 : Vec Ideal S5000x128 .f32) (x1 : Vec Ideal S1x128 .f32) (x2 : Vec Ideal S128x128 .f32)
    (p : Fin 5000) (q : Fin 128) :
    k3_pay1 (F := Ideal) x0 x1 x2 (ix2 p q)
      = ∑ k : Fin 128, (x0 (ix2 p k) + x1 (ix2 (0 : Fin 1) k)) * x2 (ix2 k q) := by
  show FloatOps.matmul dot_S5000x128_S128x128_S5000x128_1_0_0_1_n_n none
      (truncf .bf16 (addf (shapeCast S5000x128 x0 shapeCasts_S5000x128_S5000x128) (broadcastTo S5000x128 (shapeCast S1x128 x1 shapeCasts_S1x128_S1x128) broadcasts_S1x128_S5000x128)) bitsLt_bf16_f32)
      (truncf .bf16 x2 bitsLt_bf16_f32) (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]
  show (shapeCast S5000x128 x0 shapeCasts_S5000x128_S5000x128 (ix2 p k) + broadcastTo S5000x128 (shapeCast S1x128 x1 shapeCasts_S1x128_S1x128) broadcasts_S1x128_S5000x128 (ix2 p k)) * x2 (ix2 k q) = _
  rw [shapeCast_self x0, shapeCast_self x1, broadcastTo_apply x1 broadcasts_S1x128_S5000x128 (ix2 p k) (ix2 (0 : Fin 1) k) (fun a => match a with
      | ⟨0, _⟩ => by show (0 : Nat) = if (1 : Nat) = 1 then 0 else _; rw [if_pos rfl]
      | ⟨1, _⟩ => by show k.val = if (128 : Nat) = 1 then 0 else k.val; rw [if_neg (by decide)])]

/-- The dense layer's entry (r, q) from one block's entry (p, q), when the block's row p is the array's row r, the
    bias row is the array's, and the weights' column q is the array's. -/
theorem block_entry (X : Cert.Gcn.Nodes Ideal) (B : Cert.Gcn.BiasRow Ideal) (W : Cert.Gcn.Weights Ideal)
    (x0 : Vec Ideal S5000x128 .f32) (x1 : Vec Ideal S1x128 .f32) (x2 : Vec Ideal S128x128 .f32)
    (p : Fin 5000) (q : Fin 128) (r : Fin 50000)
    (h0 : ∀ k : Fin 128, x0 (ix2 p k) = X (ix2 r k))
    (h1 : ∀ k : Fin 128, x1 (ix2 (0 : Fin 1) k) = B (ix2 (0 : Fin 1) k))
    (h2 : ∀ k : Fin 128, x2 (ix2 k q) = W (ix2 k q)) :
    k3_pay1 (F := Ideal) x0 x1 x2 (ix2 p q) = Cert.Gcn.dense (F := Ideal) X B W (ix2 r q) := by
  rw [pay_apply, dense_apply]
  exact Finset.sum_congr rfl fun k _ => by rw [h0 k, h1 k, h2 k]

/-! ## From the ten blocks to the array -/

theorem zero_offsets : (![0, 0] : Fin 2 → Nat) = fun _ => 0 :=
  funext fun a => match a with | ⟨0, _⟩ => rfl | ⟨1, _⟩ => rfl

/-- The block indices at grid point t: the node block and the output block are block t of their arrays (rows
    5000·t … 5000·t + 4999); the bias row and the weights are whole, at block index zero. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem point_lt (t : Fin cfg3.N) : t.val < 10 := by
  have h := t.isLt
  have hN : cfg3.N = 10 := N_3
  omega

variable (V : (c : Dev nD) → (b : Ref sig .tc) → Buf (Elt Ideal) ((c : Thread nD τ).loc b))

/-- Row p of the node block at point t is row 5000·t + p of the node array. -/
theorem read_nodes (c : Dev nD) (t : Fin cfg3.N) (p : Fin 5000) (k : Fin 128) (h : t.val * 5000 + p.val < 50000) :
    iblk3 (F := Ideal) V c 0 t (ix2 p k) = V c main_v70 (ix2 (⟨t.val * 5000 + p.val, h⟩ : Fin 50000) k) := by
  unfold iblk3
  show V c main_v70 (((cfg3.win 0).blk t).view.emb (ix2 p k)) = _
  obtain ⟨e0, e1, -⟩ := block_indices t
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

/-- The bias block at every point is the whole bias row. -/
theorem read_bias (c : Dev nD) (t : Fin cfg3.N) (k : Fin 128) :
    iblk3 (F := Ideal) V c 1 t (ix2 (0 : Fin 1) k) = V c main_v71 (ix2 (0 : Fin 1) k) := by
  unfold iblk3
  show V c main_v71 (((cfg3.win 1).blk t).view.emb (ix2 (0 : Fin 1) k)) = _
  obtain ⟨-, -, e2, e3, -⟩ := block_indices t
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * k.val = k.val; omega

/-- The weight block at every point is the whole weight matrix. -/
theorem read_weights (c : Dev nD) (t : Fin cfg3.N) (k q : Fin 128) :
    iblk3 (F := Ideal) V c 2 t (ix2 k q) = V c main_arg8 (ix2 k q) := by
  unfold iblk3
  show V c main_arg8 (((cfg3.win 2).blk t).view.emb (ix2 k q)) = _
  obtain ⟨-, -, -, -, e4, e5, -⟩ := block_indices t
  refine congrArg _ (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

/-- What point t writes back is block t of the dense layer of the three arrays as the region found them. -/
theorem flushed_eq (c : Dev nD) (t : Fin cfg3.N) :
    (dat3 (F := Ideal) V c).flushed 3 t
      = ((cfg3.win 3).blk t).view.read (Elt Ideal) (Cert.Gcn.dense (F := Ideal) (V c main_v70) (V c main_v71) (V c main_arg8)) := by
  show (cfg3.win 3).cut (grid3.coords t) ((dat3 (F := Ideal) V c).after 3 t) = _
  rw [after3_3]
  unfold out3_3
  rw [View.canon_unit_zero zero_offsets]
  simp only [View.ld_unit_zero (S := S5000x128) zero_offsets, View.ld_unit_zero (S := S1x128) zero_offsets, View.ld_unit_zero (S := S128x128) zero_offsets]
  funext j
  obtain ⟨p, q, rfl⟩ : ∃ (p : Fin 5000) (q : Fin 128), j = ix2 p q := ⟨j 0, j 1, eq_ix2 j⟩
  have ht := point_lt t
  have hrow : t.val * 5000 + p.val < 50000 := by have := p.isLt; omega
  obtain ⟨-, -, -, -, -, -, e6, e7⟩ := block_indices t
  have eout : ((cfg3.win 3).blk t).view.emb (ix2 p q) = ix2 (⟨t.val * 5000 + p.val, hrow⟩ : Fin 50000) q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  show k3_pay1 (F := Ideal) (iblk3 V c 0 t) (iblk3 V c 1 t) (iblk3 V c 2 t) (ix2 p q)
    = Cert.Gcn.dense (F := Ideal) (V c main_v70) (V c main_v71) (V c main_arg8) (((cfg3.win 3).blk t).view.emb (ix2 p q))
  rw [eout]
  exact block_entry (V c main_v70) (V c main_v71) (V c main_arg8) _ _ _ p q ⟨_, hrow⟩
    (fun k => read_nodes V c t p k hrow) (fun k => read_bias V c t k) (fun k => read_weights V c t k q)

/-- An array index is in point t's output block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v72).slice (win3_3.rect t)).set ↔ _
  rw [View.set_slice_whole, Rect.mem_set_unit]
  exact Iff.rfl

/-- Every row r of the output array lies in the block of point r / 5000. -/
theorem covered (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, e6, e7⟩ := block_indices t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

theorem final3 (c : Dev nD) :
    (dat3 (F := Ideal) V c).arrAt 3 cfg3.N = Cert.Gcn.dense (F := Ideal) (V c main_v70) (V c main_v71) (V c main_arg8) :=
  (dat3 (F := Ideal) V c).arrAt_eq_of_cover 3 _ (fun t _ => flushed_eq V c t) covered

end Cert.KernelIdeal.Region3

end
-- ==== Proof.Region4.lean ====
/-
  Region 4 of the kernel's program: the head layer. Every grid point t = 0 … 9 takes rows 5000·t … 5000·t + 4999 of the
  node array, adds the one bias row to each of them, clamps at zero, and multiplies by the one-column head weights;
  the 5000 numbers it gets are rows 5000·t … 5000·t + 4999 of the score column. Below: the closed function
  `headRelu` read at one entry (a sum of 128 products), the body's payload read at one entry (the same sum over the
  loaded blocks), each loaded block as rows of its array, the ten write-backs as the ten blocks of `headRelu`, and
  the cover of the score column by those ten blocks.
-/
import proofs.«131708_j48490180771963_1_alg».proof.Proof.Gen.KernelIdeal.Frame
import proofs.«131708_j48490180771963_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The closed function at one entry -/

/-- The left operand is read at the output's row … -/
theorem wholeDot_lhs_0 (i : S50000x1.Idx) (q : Cert.ReferenceIdeal.dot_S50000x128_S128x1_S50000x1_1_0_0_1_n_n.contr.Idx) :
    (Cert.ReferenceIdeal.dot_S50000x128_S128x1_S50000x1_1_0_0_1_n_n.lhsIdx i q 0).val = (i 0).val := by
  unfold DotDims.lhsIdx
  rw [dif_neg (show ¬(0 : Fin S50000x128.rank) ∈ Cert.ReferenceIdeal.dot_S50000x128_S128x1_S50000x1_1_0_0_1_n_n.lhsBatch by decide), dif_pos (show (0 : Fin S50000x128.rank) ∈ Cert.ReferenceIdeal.dot_S50000x128_S128x1_S50000x1_1_0_0_1_n_n.lhsNonContracting by decide)]
  rfl
/-- … and at the summation index along its second axis; -/
theorem wholeDot_lhs_1 (i : S50000x1.Idx) (q : Cert.ReferenceIdeal.dot_S50000x128_S128x1_S50000x1_1_0_0_1_n_n.contr.Idx) :
    (Cert.ReferenceIdeal.dot_S50000x128_S128x1_S50000x1_1_0_0_1_n_n.lhsIdx i q 1).val = (q ⟨0, by decide⟩).val :=
  Cert.ReferenceIdeal.dot_S50000x128_S128x1_S50000x1_1_0_0_1_n_n.lhsIdx_val_of_single rfl i q
/-- the right operand at the summation index along its first axis … -/
theorem wholeDot_rhs_0 (i : S50000x1.Idx) (q : Cert.ReferenceIdeal.dot_S50000x128_S128x1_S50000x1_1_0_0_1_n_n.contr.Idx) :
    (Cert.ReferenceIdeal.dot_S50000x128_S128x1_S50000x1_1_0_0_1_n_n.rhsIdx i q 0).val = (q ⟨0, by decide⟩).val :=
  Cert.ReferenceIdeal.dot_S50000x128_S128x1_S50000x1_1_0_0_1_n_n.rhsIdx_val_of_single rfl i q
/-- … and at the output's column. -/
theorem wholeDot_rhs_1 (i : S50000x1.Idx) (q : Cert.ReferenceIdeal.dot_S50000x128_S128x1_S50000x1_1_0_0_1_n_n.contr.Idx) :
    (Cert.ReferenceIdeal.dot_S50000x128_S128x1_S50000x1_1_0_0_1_n_n.rhsIdx i q 1).val = (i 1).val := by
  unfold DotDims.rhsIdx
  rw [dif_neg (show ¬(1 : Fin S128x1.rank) ∈ Cert.ReferenceIdeal.dot_S50000x128_S128x1_S50000x1_1_0_0_1_n_n.rhsBatch by decide), dif_pos (show (1 : Fin S128x1.rank) ∈ Cert.ReferenceIdeal.dot_S50000x128_S128x1_S50000x1_1_0_0_1_n_n.rhsNonContracting by decide)]
  rfl

/-- The bias row repeated down the nodes reads, in row r and column k, the row's k-th entry. -/
theorem everyNode_apply (b : Cert.Gcn.BiasRow Ideal) (r : Fin 50000) (k : Fin 128) :
    Cert.Gcn.everyNode (F := Ideal) b (ix2 r k) = b (ix2 (0 : Fin 1) k) := by
  unfold Cert.Gcn.everyNode
  exact broadcastInDim_apply _ Cert.ReferenceIdeal.Gen.bcast_S1x128_S50000x128_0_1 b (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])

/-- The all-zero node array reads zero everywhere. -/
theorem zeroNodes_apply (i : S50000x128.Idx) : Cert.Gcn.zeroNodes (F := Ideal) i = 0 := by
  unfold Cert.Gcn.zeroNodes
  rw [broadcastInDim_apply _ Cert.ReferenceIdeal.Gen.bcast_S_S50000x128 (constant (F := Ideal) S_ .f32 0x00000000#32) i ix0 (fun a => a.elim0)]
  exact Ideal.ofBits_zero_f32

/-- Entry (r, q) of `headRelu x b w`: the sum over k of max(x(r,k) + b(0,k), 0) · w(k,q). -/
theorem headRelu_apply (x : Cert.Gcn.Nodes Ideal) (b : Cert.Gcn.BiasRow Ideal) (w : Cert.Gcn.HeadWeights Ideal) (r : Fin 50000) (q : Fin 1) :
    Cert.Gcn.headRelu (F := Ideal) x b w (ix2 r q)
      = ∑ k : Fin 128, max (x (ix2 r k) + b (ix2 (0 : Fin 1) k)) 0 * w (ix2 k q) := by
  unfold Cert.Gcn.headRelu Cert.Gcn.matHead
  generalize hy : maximumf (addf x (Cert.Gcn.everyNode b)) (Cert.Gcn.zeroNodes (F := Ideal)) = y
  simp only [Host.dotGeneral]
  rw [Ideal.dotGeneral_apply, ← Equiv.sum_comp (contrEquiv1 Cert.ReferenceIdeal.dot_S50000x128_S128x1_S50000x1_1_0_0_1_n_n 128 rfl rfl).symm]
  refine Finset.sum_congr rfl fun k _ => ?_
  have hk := contrEquiv1_symm_val Cert.ReferenceIdeal.dot_S50000x128_S128x1_S50000x1_1_0_0_1_n_n 128 rfl rfl k
  have el : Cert.ReferenceIdeal.dot_S50000x128_S128x1_S50000x1_1_0_0_1_n_n.lhsIdx (ix2 r q) ((contrEquiv1 Cert.ReferenceIdeal.dot_S50000x128_S128x1_S50000x1_1_0_0_1_n_n 128 rfl rfl).symm k) = ix2 r k := funext fun a => Fin.ext (by
    match a with
    | ⟨0, _⟩ => exact wholeDot_lhs_0 _ _
    | ⟨1, _⟩ => exact (wholeDot_lhs_1 _ _).trans hk)
  have er : Cert.ReferenceIdeal.dot_S50000x128_S128x1_S50000x1_1_0_0_1_n_n.rhsIdx (ix2 r q) ((contrEquiv1 Cert.ReferenceIdeal.dot_S50000x128_S128x1_S50000x1_1_0_0_1_n_n 128 rfl rfl).symm k) = ix2 k q := funext fun a => Fin.ext (by
    match a with
    | ⟨0, _⟩ => exact (wholeDot_rhs_0 _ _).trans hk
    | ⟨1, _⟩ => exact wholeDot_rhs_1 _ _)
  rw [el, er, ← hy]
  show max (x (ix2 r k) + Cert.Gcn.everyNode b (ix2 r k)) (Cert.Gcn.zeroNodes (F := Ideal) (ix2 r k)) * w (ix2 k q) = _
  rw [everyNode_apply, zeroNodes_apply]

/-! ## The body's payload at one entry -/

/-- The block product reads its left operand at the output's row … -/
theorem blockDot_lhs_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- … and at the summation index along its second axis; -/
theorem blockDot_lhs_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- its right operand at the summation index along its first axis … -/
theorem blockDot_rhs_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- … and at the output's column. -/
theorem blockDot_rhs_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The one-row block repeated down the 5000 rows reads, in row p and column k, the row's k-th entry. -/
theorem rowBlock_apply (x1 : Vec Ideal S1x128 .f32) (p : Fin 5000) (k : Fin 128) :
    broadcastTo S5000x128 x1 broadcasts_S1x128_S5000x128 (ix2 p k) = x1 (ix2 (0 : Fin 1) k) :=
  broadcastTo_apply x1 broadcasts_S1x128_S5000x128 (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])

/-- Entry (p, q) of the payload: the sum over k of max(x0(p,k) + x1(0,k), 0) · x2(k,q). The two format changes are the
    identity on extended reals and the accumulator is zero. -/
theorem pay_apply (x0 : Vec Ideal S5000x128 .f32) (x1 : Vec Ideal S1x128 .f32) (x2 : Vec Ideal S128x1 .f32) (p : Fin 5000) (q : Fin 1) :
    k4_pay1 (F := Ideal) x0 x1 x2 (ix2 p q)
      = ∑ k : Fin 128, max (x0 (ix2 p k) + x1 (ix2 (0 : Fin 1) k)) 0 * x2 (ix2 k q) := by
  unfold k4_pay1
  simp only [shapeCast_self, matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p q) ((contrEquiv1 dot_S5000x128_S128x1_S5000x1_1_0_0_1_n_n 128 rfl rfl).symm k) = ix2 p k := funext fun a => Fin.ext (by
    match a with
    | ⟨0, _⟩ => exact blockDot_lhs_0 _ _
    | ⟨1, _⟩ => exact (blockDot_lhs_1 _ _).trans hk)
  have er : dot_S5000x128_S128x1_S5000x1_1_0_0_1_n_n.rhsIdx (ix2 p q) ((contrEquiv1 dot_S5000x128_S128x1_S5000x1_1_0_0_1_n_n 128 rfl rfl).symm k) = ix2 k q := funext fun a => Fin.ext (by
    match a with
    | ⟨0, _⟩ => exact (blockDot_rhs_0 _ _).trans hk
    | ⟨1, _⟩ => exact blockDot_rhs_1 _ _)
  rw [el, er]
  show max (x0 (ix2 p k) + broadcastTo S5000x128 x1 broadcasts_S1x128_S5000x128 (ix2 p k)) (Ideal.ofBits .f32 0x00000000#32) * x2 (ix2 k q) = _
  rw [rowBlock_apply, Ideal.ofBits_zero_f32]

/-! ## Each loaded block as rows of its array -/

theorem hz : (![0, 0] : Fin 2 → Nat) = fun _ => 0 := funext fun a => by fin_cases a <;> rfl

/-- The printed index maps over the ten points: the node blocks and the score blocks move with the point down the rows;
    the bias row and the head weights stay at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- Entry (p, k) of the node block at point t is entry (5000·t + p, k) of the node array. -/
theorem nodeBlock_apply (c : Dev nD) (t : Fin cfg4.N) (p : Fin 5000) (k : Fin 128) (r : Fin 50000) (hr : r.val = 5000 * t.val + p.val) :
    (iblk4 V c 0 t : Vec Ideal S5000x128 .f32) (ix2 p k) = (V c main_v72 : S50000x128.Idx → Elt Ideal .f32) (ix2 r k) := by
  obtain ⟨e0, e1, -⟩ := idx_facts t
  show V c main_v72 (((cfg4.win 0).blk t).view.emb (ix2 p k)) = V c main_v72 (ix2 r k)
  have h : ((cfg4.win 0).blk t).view.emb (ix2 p k) = ix2 r k := by
    funext a; apply Fin.ext
    match a with
    | ⟨0, _⟩ => show win4_0.index t (0 : Fin 2) * 5000 + 1 * p.val = r.val; rw [e0, hr]; omega
    | ⟨1, _⟩ => show win4_0.index t (1 : Fin 2) * 128 + 1 * k.val = k.val; rw [e1]; omega
  rw [h]

/-- The bias block at every point is the whole bias row. -/
theorem biasBlock_apply (c : Dev nD) (t : Fin cfg4.N) (k : Fin 128) :
    (iblk4 V c 1 t : Vec Ideal S1x128 .f32) (ix2 (0 : Fin 1) k) = (V c main_v73 : S1x128.Idx → Elt Ideal .f32) (ix2 (0 : Fin 1) k) := by
  obtain ⟨-, -, e2, e3, -⟩ := idx_facts t
  show V c main_v73 (((cfg4.win 1).blk t).view.emb (ix2 (0 : Fin 1) k)) = V c main_v73 (ix2 (0 : Fin 1) k)
  have h : ((cfg4.win 1).blk t).view.emb (ix2 (0 : Fin 1) k) = ix2 (0 : Fin 1) k := by
    funext a; apply Fin.ext
    match a with
    | ⟨0, _⟩ => show win4_1.index t (0 : Fin 2) * 1 + 1 * 0 = 0; rw [e2]
    | ⟨1, _⟩ => show win4_1.index t (1 : Fin 2) * 128 + 1 * k.val = k.val; rw [e3]; omega
  rw [h]

/-- The weight block at every point is the whole one-column weight array. -/
theorem weightBlock_apply (c : Dev nD) (t : Fin cfg4.N) (k : Fin 128) (q : Fin 1) :
    (iblk4 V c 2 t : Vec Ideal S128x1 .f32) (ix2 k q) = (V c main_arg10 : S128x1.Idx → Elt Ideal .f32) (ix2 k q) := by
  obtain ⟨-, -, -, -, e4, e5, -⟩ := idx_facts t
  show V c main_arg10 (((cfg4.win 2).blk t).view.emb (ix2 k q)) = V c main_arg10 (ix2 k q)
  have h : ((cfg4.win 2).blk t).view.emb (ix2 k q) = ix2 k q := by
    funext a; apply Fin.ext
    match a with
    | ⟨0, _⟩ => show win4_2.index t (0 : Fin 2) * 128 + 1 * k.val = k.val; rw [e4]; omega
    | ⟨1, _⟩ => show win4_2.index t (1 : Fin 2) * 1 + 1 * q.val = q.val; rw [e5]; omega
  rw [h]

/-! ## The ten write-backs are the ten blocks of the closed function -/

/-- What point t writes back is rows 5000·t … 5000·t + 4999 of `headRelu` of the three arrays: entry by entry both are
    the same sum of 128 products, the block's entries being the arrays' entries in those rows. -/
theorem flushed_eq (c : Dev nD) (t : Fin cfg4.N) :
    (dat4 (F := Ideal) V c).flushed 3 t
      = ((cfg4.win 3).blk t).view.read (Elt Ideal) (Cert.Gcn.headRelu (F := Ideal) (V c main_v72) (V c main_v73) (V c main_arg10)) := by
  show (cfg4.win 3).cut (grid4.coords t) ((dat4 (F := Ideal) V c).after 3 t) = _
  rw [after4_3]
  unfold out4_3
  rw [View.canon_unit_zero hz]
  simp only [View.ld_unit_zero (S := S5000x128) hz, View.ld_unit_zero (S := S1x128) hz, View.ld_unit_zero (S := S128x1) hz]
  have ht : t.val < 10 := lt_of_lt_of_eq t.isLt N_4
  obtain ⟨-, -, -, -, -, -, e6, e7⟩ := idx_facts t
  funext j
  obtain ⟨p, q, rfl⟩ : ∃ (p : Fin 5000) (q : Fin 1), j = ix2 p q := ⟨j 0, j 1, eq_ix2 j⟩
  show k4_pay1 (F := Ideal) (iblk4 V c 0 t) (iblk4 V c 1 t) (iblk4 V c 2 t) (ix2 p q)
    = Cert.Gcn.headRelu (F := Ideal) (V c main_v72) (V c main_v73) (V c main_arg10) (((cfg4.win 3).blk t).view.emb (ix2 p q))
  have hemb : ((cfg4.win 3).blk t).view.emb (ix2 p q) = ix2 (⟨5000 * t.val + p.val, by omega⟩ : Fin 50000) q := by
    funext a; apply Fin.ext
    match a with
    | ⟨0, _⟩ => show win4_3.index t (0 : Fin 2) * 5000 + 1 * p.val = 5000 * t.val + p.val; rw [e6]; omega
    | ⟨1, _⟩ => show win4_3.index t (1 : Fin 2) * 1 + 1 * q.val = q.val; rw [e7]; omega
  rw [hemb, headRelu_apply]
  refine (pay_apply _ _ _ p q).trans ?_
  refine Finset.sum_congr rfl fun k _ => ?_
  rw [nodeBlock_apply V c t p k ⟨5000 * t.val + p.val, by omega⟩ rfl, biasBlock_apply V c t k, weightBlock_apply V c t k q]

/-! ## The ten blocks cover the score column -/

/-- An entry of the score column is in point t's block when each of its coordinates is in the block's range. -/
theorem mem_blk (t : Fin cfg4.N) (i : S50000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v74).slice (win4_3.rect t)).set ↔ _
  rw [View.set_slice_whole, Rect.mem_set_unit]
  exact Iff.rfl

/-- Row r of the score column is in the block of point r / 5000. -/
theorem cover (i : S50000x1.Idx) : ∃ t : Fin cfg4.N, (cfg4.win 3).flush t = true ∧ i ∈ ((cfg4.win 3).blk t).view.set := by
  have hi0 : (i 0).val < 50000 := (i 0).isLt
  have hi1 : (i 1).val < 1 := (i 1).isLt
  have hN : cfg4.N = 10 := N_4
  obtain ⟨t, htv⟩ : ∃ t : Fin cfg4.N, t.val = (i 0).val / 5000 := ⟨⟨(i 0).val / 5000, by rw [hN]; omega⟩, rfl⟩
  obtain ⟨-, -, -, -, -, -, e6, e7⟩ := idx_facts t
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; rw [e6, htv]; omega
  | ⟨1, _⟩ => show win4_3.index t (1 : Fin 2) * 1 ≤ (i 1).val ∧ (i 1).val < win4_3.index t (1 : Fin 2) * 1 + 1; rw [e7]; omega

/-! ## The score column after the region -/

theorem final4 (c : Dev nD) :
    (dat4 (F := Ideal) V c).arrAt 3 cfg4.N = Cert.Gcn.headRelu (F := Ideal) (V c main_v72) (V c main_v73) (V c main_arg10) :=
  (dat4 (F := Ideal) V c).arrAt_eq_of_cover 3 (Cert.Gcn.headRelu (F := Ideal) (V c main_v72) (V c main_v73) (V c main_arg10))
    (fun t _ => flushed_eq V c t) cover

end Cert.KernelIdeal.Region4

end
-- ==== Proof.Chain.lean ====
/-
  The kernel's result buffer read back through @main: six stretches of host operations with five regions between them.

  Every boundary's contents are a fold from the launch memory. Here each buffer that is still read later is given, at
  each boundary, as a value of the launch memory: the index vectors and edge weights of the first stretch are carried
  unchanged to the three later stretches that read them; each of those stretches is one aggregation (`aggOf`) of the
  region's output before it, and lays the next bias out as a row; each region leaves `dense`, `denseRelu` or
  `headRelu` of its three input arrays; the last stretch adds the output bias. Unfolding the layers' definitions one
  after the other gives the specification's `kernOut` of the launched arguments.
-/
import proofs.«131708_j48490180771963_1_alg».proof.Proof.Gen.KernelIdeal.Frame
import proofs.«131708_j48490180771963_1_alg».proof.Proof.Spec
import proofs.«131708_j48490180771963_1_alg».proof.Proof.ChainHead
import proofs.«131708_j48490180771963_1_alg».proof.Proof.Region0
import proofs.«131708_j48490180771963_1_alg».proof.Proof.Region1
import proofs.«131708_j48490180771963_1_alg».proof.Proof.Region2
import proofs.«131708_j48490180771963_1_alg».proof.Proof.Region3
import proofs.«131708_j48490180771963_1_alg».proof.Proof.Region4

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat Cfg Window)

section Lemmas

variable (m : (ℓ : Loc nD τ sig) → Buf (Elt Ideal) ℓ) (ρ : Dev nD → PrngReg) (c : Dev nD)

/-! ## The buffers each host stretch writes, and each region's arrays

A buffer that a stretch does not write, and that is no array of a region, is the same before and after it. -/

/-- The result buffers of the stretch between regions 0 and 1. -/
def wr1 : List (Ref sig .tc) :=
  [main_c_5, main_v31, main_v32, main_c_6, main_v33, main_v34, main_v35, main_v36, main_v37, main_v38, main_v39,
   main_cst_7, main_v40, main_v41, main_v42, main_v43]
/-- The result buffers of the stretch between regions 1 and 2. -/
def wr2 : List (Ref sig .tc) :=
  [main_c_8, main_v45, main_v46, main_c_9, main_v47, main_v48, main_v49, main_v50, main_v51, main_v52, main_v53,
   main_cst_10, main_v54, main_v55, main_v56, main_v57]
/-- The result buffers of the stretch between regions 2 and 3. -/
def wr3 : List (Ref sig .tc) :=
  [main_c_11, main_v59, main_v60, main_c_12, main_v61, main_v62, main_v63, main_v64, main_v65, main_v66, main_v67,
   main_cst_13, main_v68, main_v69, main_v70, main_v71]
/-- The result buffer of the stretch between regions 3 and 4. -/
def wr4 : List (Ref sig .tc) := [main_v73]

theorem hw1 : (hostOps1 (F := Ideal)).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem hw2 : (hostOps2 (F := Ideal)).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem hw3 : (hostOps3 (F := Ideal)).Forall fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem hw4 : (hostOps4 (F := Ideal)).Forall fun op => op.writes ⊆ (wr4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset, List.mem_map]
  exact ⟨_, by decide, rfl⟩

/-- The arrays of each region: three inputs and the output. -/
def arr0 : List (Ref sig .tc) := List.ofFn (Pipeline.arrRef spec0)
def arr1 : List (Ref sig .tc) := List.ofFn (Pipeline.arrRef spec1)
def arr2 : List (Ref sig .tc) := List.ofFn (Pipeline.arrRef spec2)
def arr3 : List (Ref sig .tc) := List.ofFn (Pipeline.arrRef spec3)
def arr4 : List (Ref sig .tc) := List.ofFn (Pipeline.arrRef spec4)

theorem ne_of_not_mem_ofFn {n : Nat} {f : Fin n → Ref sig .tc} {b : Ref sig .tc} (h : b ∉ List.ofFn f) : ∀ w, f w ≠ b :=
  fun w e => h (List.mem_ofFn.mpr ⟨w, e⟩)

/-! ### One step: across a stretch, across a region -/

theorem step3 (b : Ref sig .tc) (h : b ∉ wr1) : W3 m ρ c (Proc.devRef .tc b) = W2 m ρ c (Proc.devRef .tc b) :=
  StableHlo.after_of_writes_sub hostOps1 _ hw1 h
theorem step5 (b : Ref sig .tc) (h : b ∉ wr2) : W5 m ρ c (Proc.devRef .tc b) = W4 m ρ c (Proc.devRef .tc b) :=
  StableHlo.after_of_writes_sub hostOps2 _ hw2 h
theorem step7 (b : Ref sig .tc) (h : b ∉ wr3) : W7 m ρ c (Proc.devRef .tc b) = W6 m ρ c (Proc.devRef .tc b) :=
  StableHlo.after_of_writes_sub hostOps3 _ hw3 h
theorem step9 (b : Ref sig .tc) (h : b ∉ wr4) : W9 m ρ c (Proc.devRef .tc b) = W8 m ρ c (Proc.devRef .tc b) :=
  StableHlo.after_of_writes_sub hostOps4 _ hw4 h
theorem step2 (b : Ref sig .tc) (h : b ∉ arr0) : W2 m ρ c (Proc.devRef .tc b) = W1 m ρ c (Proc.devRef .tc b) :=
  W2_of_ne m ρ c b (ne_of_not_mem_ofFn h)
theorem step4 (b : Ref sig .tc) (h : b ∉ arr1) : W4 m ρ c (Proc.devRef .tc b) = W3 m ρ c (Proc.devRef .tc b) :=
  W4_of_ne m ρ c b (ne_of_not_mem_ofFn h)
theorem step6 (b : Ref sig .tc) (h : b ∉ arr2) : W6 m ρ c (Proc.devRef .tc b) = W5 m ρ c (Proc.devRef .tc b) :=
  W6_of_ne m ρ c b (ne_of_not_mem_ofFn h)
theorem step8 (b : Ref sig .tc) (h : b ∉ arr3) : W8 m ρ c (Proc.devRef .tc b) = W7 m ρ c (Proc.devRef .tc b) :=
  W8_of_ne m ρ c b (ne_of_not_mem_ofFn h)
theorem step10 (b : Ref sig .tc) (h : b ∉ arr4) : W10 m ρ c (Proc.devRef .tc b) = W9 m ρ c (Proc.devRef .tc b) :=
  W10_of_ne m ρ c b (ne_of_not_mem_ofFn h)

/-! ### Many steps: from region 0's entry to a later boundary -/

/-- What is written, or is a region's array, between region 0's entry and each later boundary. -/
def dirty2 : List (Ref sig .tc) := arr0
def dirty3 : List (Ref sig .tc) := dirty2 ++ wr1
def dirty4 : List (Ref sig .tc) := dirty3 ++ arr1
def dirty5 : List (Ref sig .tc) := dirty4 ++ wr2
def dirty6 : List (Ref sig .tc) := dirty5 ++ arr2
def dirty7 : List (Ref sig .tc) := dirty6 ++ wr3
def dirty8 : List (Ref sig .tc) := dirty7 ++ arr3
def dirty9 : List (Ref sig .tc) := dirty8 ++ wr4
def dirty10 : List (Ref sig .tc) := dirty9 ++ arr4

theorem carry2 (b : Ref sig .tc) (h : b ∉ dirty2) : W2 m ρ c (Proc.devRef .tc b) = W1 m ρ c (Proc.devRef .tc b) :=
  step2 m ρ c b h
theorem carry3 (b : Ref sig .tc) (h : b ∉ dirty3) : W3 m ρ c (Proc.devRef .tc b) = W1 m ρ c (Proc.devRef .tc b) :=
  (step3 m ρ c b fun hb => h (List.mem_append_right _ hb)).trans (carry2 m ρ c b fun hb => h (List.mem_append_left _ hb))
theorem carry4 (b : Ref sig .tc) (h : b ∉ dirty4) : W4 m ρ c (Proc.devRef .tc b) = W1 m ρ c (Proc.devRef .tc b) :=
  (step4 m ρ c b fun hb => h (List.mem_append_right _ hb)).trans (carry3 m ρ c b fun hb => h (List.mem_append_left _ hb))
theorem carry5 (b : Ref sig .tc) (h : b ∉ dirty5) : W5 m ρ c (Proc.devRef .tc b) = W1 m ρ c (Proc.devRef .tc b) :=
  (step5 m ρ c b fun hb => h (List.mem_append_right _ hb)).trans (carry4 m ρ c b fun hb => h (List.mem_append_left _ hb))
theorem carry6 (b : Ref sig .tc) (h : b ∉ dirty6) : W6 m ρ c (Proc.devRef .tc b) = W1 m ρ c (Proc.devRef .tc b) :=
  (step6 m ρ c b fun hb => h (List.mem_append_right _ hb)).trans (carry5 m ρ c b fun hb => h (List.mem_append_left _ hb))
theorem carry7 (b : Ref sig .tc) (h : b ∉ dirty7) : W7 m ρ c (Proc.devRef .tc b) = W1 m ρ c (Proc.devRef .tc b) :=
  (step7 m ρ c b fun hb => h (List.mem_append_right _ hb)).trans (carry6 m ρ c b fun hb => h (List.mem_append_left _ hb))
theorem carry8 (b : Ref sig .tc) (h : b ∉ dirty8) : W8 m ρ c (Proc.devRef .tc b) = W1 m ρ c (Proc.devRef .tc b) :=
  (step8 m ρ c b fun hb => h (List.mem_append_right _ hb)).trans (carry7 m ρ c b fun hb => h (List.mem_append_left _ hb))
theorem carry9 (b : Ref sig .tc) (h : b ∉ dirty9) : W9 m ρ c (Proc.devRef .tc b) = W1 m ρ c (Proc.devRef .tc b) :=
  (step9 m ρ c b fun hb => h (List.mem_append_right _ hb)).trans (carry8 m ρ c b fun hb => h (List.mem_append_left _ hb))
theorem carry10 (b : Ref sig .tc) (h : b ∉ dirty10) : W10 m ρ c (Proc.devRef .tc b) = W1 m ρ c (Proc.devRef .tc b) :=
  (step10 m ρ c b fun hb => h (List.mem_append_right _ hb)).trans (carry9 m ρ c b fun hb => h (List.mem_append_left _ hb))

/-! ## One round of message passing, from its four operands -/

/-- An index vector of the edge list extended by the self loops. -/
abbrev EIdx := (⟨S650000, .i32⟩ : BufTy).Contents (Elt Ideal)
/-- One weight per edge of the extended list, as a column. -/
abbrev ECol := (⟨S650000x1, .f32⟩ : BufTy).Contents (Elt Ideal)

/-- Node `d` receives the sum, over the edges whose destination in `dst` is `d`, of the row of `h` numbered by
    the edge's entry of `src` (a negative number counting from the end) times the edge's weight in `nrm`. -/
def aggOf (src dst : EIdx) (nrm : ECol) (h : Cert.Gcn.Nodes Ideal) : Cert.Gcn.Nodes Ideal :=
  Host.scatterAdd scatter_S50000x128_S650000x1_S650000x128_1_0_0_1
    (broadcastInDim S50000x128 ![] bcast_S_S50000x128 (constant (F := Ideal) S_ .f32 0x00000000#32))
    (broadcastInDim S650000x1 ![0] bcast_S650000_S650000x1_0 dst)
    (mulf (Host.gather gather_S50000x128_S650000x1_S650000x128_1_0_n_n_0_1_1128 h
        (broadcastInDim S650000x1 ![0] bcast_S650000_S650000x1_0
          (select (cmpi .slt src (broadcastInDim S650000 ![] bcast_S_S650000 (constantI S_ 32 0#32)))
            (addi src (broadcastInDim S650000 ![] bcast_S_S650000 (constantI S_ 32 50000#32))) src)))
      (broadcastInDim S650000x128 ![0, 1] bcast_S650000x1_S650000x128_0_1 nrm))

/-- The specification's aggregation is `aggOf` at the edge array's two index vectors and its edge weights. -/
theorem aggregate_eq (e : Cert.Gcn.Edges Ideal) (h : Cert.Gcn.Nodes Ideal) :
    Cert.Gcn.aggregate e h = aggOf (Cert.Gcn.srcIdx e) (Cert.Gcn.dstIdx e) (Cert.Gcn.edgeNorm e) h := rfl

/-! ## What each stretch computes from the boundary before it -/

/-- The stretch between regions 0 and 1: one aggregation of the region's output. -/
theorem stretch1_agg (s d : EIdx) (n : ECol) (h : Cert.Gcn.Nodes Ideal)
    (hs : W2 m ρ c (Proc.devRef .tc main_v3) = s) (hd : W2 m ρ c (Proc.devRef .tc main_v6) = d)
    (hn : W2 m ρ c (Proc.devRef .tc main_v27) = n) (hh : W2 m ρ c (Proc.devRef .tc main_v30) = h) :
    W3 m ρ c (Proc.devRef .tc main_v42) = aggOf s d n h := by
  show StableHlo.after hostOps1 (W2 m ρ c) (Proc.devRef .tc main_v42) = _
  after_results_simp
  rw [hs, hd, hn, hh]
  rfl
/-- The same stretch lays the next bias vector out as a row. -/
theorem stretch1_bias (b : Cert.Gcn.Bias Ideal) (hb : W2 m ρ c (Proc.devRef .tc main_arg3) = b) :
    W3 m ρ c (Proc.devRef .tc main_v43) = Cert.Gcn.rowOfReshape b := by
  show StableHlo.after hostOps1 (W2 m ρ c) (Proc.devRef .tc main_v43) = _
  after_results
  rw [hb]
  rfl

/-- The stretch between regions 1 and 2: one aggregation of the region's output. -/
theorem stretch2_agg (s d : EIdx) (n : ECol) (h : Cert.Gcn.Nodes Ideal)
    (hs : W4 m ρ c (Proc.devRef .tc main_v3) = s) (hd : W4 m ρ c (Proc.devRef .tc main_v6) = d)
    (hn : W4 m ρ c (Proc.devRef .tc main_v27) = n) (hh : W4 m ρ c (Proc.devRef .tc main_v44) = h) :
    W5 m ρ c (Proc.devRef .tc main_v56) = aggOf s d n h := by
  show StableHlo.after hostOps2 (W4 m ρ c) (Proc.devRef .tc main_v56) = _
  after_results_simp
  rw [hs, hd, hn, hh]
  rfl
/-- The same stretch lays the next bias vector out as a row. -/
theorem stretch2_bias (b : Cert.Gcn.Bias Ideal) (hb : W4 m ρ c (Proc.devRef .tc main_arg5) = b) :
    W5 m ρ c (Proc.devRef .tc main_v57) = Cert.Gcn.rowOfReshape b := by
  show StableHlo.after hostOps2 (W4 m ρ c) (Proc.devRef .tc main_v57) = _
  after_results
  rw [hb]
  rfl

/-- The stretch between regions 2 and 3: one aggregation of the region's output. -/
theorem stretch3_agg (s d : EIdx) (n : ECol) (h : Cert.Gcn.Nodes Ideal)
    (hs : W6 m ρ c (Proc.devRef .tc main_v3) = s) (hd : W6 m ρ c (Proc.devRef .tc main_v6) = d)
    (hn : W6 m ρ c (Proc.devRef .tc main_v27) = n) (hh : W6 m ρ c (Proc.devRef .tc main_v58) = h) :
    W7 m ρ c (Proc.devRef .tc main_v70) = aggOf s d n h := by
  show StableHlo.after hostOps3 (W6 m ρ c) (Proc.devRef .tc main_v70) = _
  after_results_simp
  rw [hs, hd, hn, hh]
  rfl
/-- The same stretch lays the next bias vector out as a row. -/
theorem stretch3_bias (b : Cert.Gcn.Bias Ideal) (hb : W6 m ρ c (Proc.devRef .tc main_arg7) = b) :
    W7 m ρ c (Proc.devRef .tc main_v71) = Cert.Gcn.rowOfReshape b := by
  show StableHlo.after hostOps3 (W6 m ρ c) (Proc.devRef .tc main_v71) = _
  after_results
  rw [hb]
  rfl

/-- The stretch between regions 3 and 4 lays the head's first bias vector out as a row. -/
theorem stretch4_bias (b : Cert.Gcn.Bias Ideal) (hb : W8 m ρ c (Proc.devRef .tc main_arg9) = b) :
    W9 m ρ c (Proc.devRef .tc main_v73) = Cert.Gcn.rowOfReshape b := by
  show StableHlo.after hostOps4 (W8 m ρ c) (Proc.devRef .tc main_v73) = _
  after_results
  rw [hb]
  rfl

/-- The last stretch adds the output bias, repeated for every node, to region 4's output. -/
theorem stretch5_out (x : Cert.Gcn.Scores Ideal) (b : (⟨S1, .f32⟩ : BufTy).Contents (Elt Ideal))
    (hx : W10 m ρ c (Proc.devRef .tc main_v74) = x) (hb : W10 m ρ c (Proc.devRef .tc main_arg11) = b) :
    W11 m ρ c (Proc.devRef .tc main_v77)
      = addf (F := Ideal) (s := S50000x1) (φ := .f32) x (Cert.Gcn.everyScore (F := Ideal) b) := by
  show StableHlo.after hostOps5 (W10 m ρ c) (Proc.devRef .tc main_v77) = _
  after_results
  rw [hx, hb]
  rfl

/-! ## What each region leaves, from the boundary before it -/

/-- Region 0 leaves `dense` of its three input arrays in its output array. -/
theorem region0_out (x : Cert.Gcn.Nodes Ideal) (r : Cert.Gcn.BiasRow Ideal) (w : Cert.Gcn.Weights Ideal)
    (hx : W1 m ρ c (Proc.devRef .tc main_arg0) = x) (hr : W1 m ρ c (Proc.devRef .tc main_v29) = r)
    (hw : W1 m ρ c (Proc.devRef .tc main_arg2) = w) :
    W2 m ρ c (Proc.devRef .tc main_v30) = Cert.Gcn.dense x r w := by
  subst hx hr hw
  exact (W2_arr m ρ c 3).trans (Region0.final0 (V1 m ρ) c)

/-- Region 1 leaves `denseRelu` of its three input arrays in its output array. -/
theorem region1_out (x : Cert.Gcn.Nodes Ideal) (r : Cert.Gcn.BiasRow Ideal) (w : Cert.Gcn.Weights Ideal)
    (hx : W3 m ρ c (Proc.devRef .tc main_v42) = x) (hr : W3 m ρ c (Proc.devRef .tc main_v43) = r)
    (hw : W3 m ρ c (Proc.devRef .tc main_arg4) = w) :
    W4 m ρ c (Proc.devRef .tc main_v44) = Cert.Gcn.denseRelu x r w := by
  subst hx hr hw
  exact (W4_arr m ρ c 3).trans (Region1.final1 (V3 m ρ) c)

/-- Region 2 leaves `denseRelu` of its three input arrays in its output array. -/
theorem region2_out (x : Cert.Gcn.Nodes Ideal) (r : Cert.Gcn.BiasRow Ideal) (w : Cert.Gcn.Weights Ideal)
    (hx : W5 m ρ c (Proc.devRef .tc main_v56) = x) (hr : W5 m ρ c (Proc.devRef .tc main_v57) = r)
    (hw : W5 m ρ c (Proc.devRef .tc main_arg6) = w) :
    W6 m ρ c (Proc.devRef .tc main_v58) = Cert.Gcn.denseRelu x r w := by
  subst hx hr hw
  exact (W6_arr m ρ c 3).trans (Region2.final2 (V5 m ρ) c)

/-- Region 3 leaves `dense` of its three input arrays in its output array. -/
theorem region3_out (x : Cert.Gcn.Nodes Ideal) (r : Cert.Gcn.BiasRow Ideal) (w : Cert.Gcn.Weights Ideal)
    (hx : W7 m ρ c (Proc.devRef .tc main_v70) = x) (hr : W7 m ρ c (Proc.devRef .tc main_v71) = r)
    (hw : W7 m ρ c (Proc.devRef .tc main_arg8) = w) :
    W8 m ρ c (Proc.devRef .tc main_v72) = Cert.Gcn.dense x r w := by
  subst hx hr hw
  exact (W8_arr m ρ c 3).trans (Region3.final3 (V7 m ρ) c)

/-- Region 4 leaves `headRelu` of its three input arrays in its output array. -/
theorem region4_out (x : Cert.Gcn.Nodes Ideal) (r : Cert.Gcn.BiasRow Ideal) (w : Cert.Gcn.HeadWeights Ideal)
    (hx : W9 m ρ c (Proc.devRef .tc main_v72) = x) (hr : W9 m ρ c (Proc.devRef .tc main_v73) = r)
    (hw : W9 m ρ c (Proc.devRef .tc main_arg10) = w) :
    W10 m ρ c (Proc.devRef .tc main_v74) = Cert.Gcn.headRelu x r w := by
  subst hx hr hw
  exact (W10_arr m ρ c 3).trans (Region4.final4 (V9 m ρ) c)

/-! ## The values along the kernel's chain, as functions of the launch memory -/

/-- The node features, as launched. -/
abbrev inX : Cert.Gcn.Nodes Ideal := m ((c : Thread nD τ).loc main_arg0)
/-- The edge array, as launched. -/
abbrev inE : Cert.Gcn.Edges Ideal := m ((c : Thread nD τ).loc main_arg1)
/-- The first layer's weights, as launched. -/
abbrev inW0 : Cert.Gcn.Weights Ideal := m ((c : Thread nD τ).loc main_arg2)
/-- The first layer's bias, as launched. -/
abbrev inB0 : Cert.Gcn.Bias Ideal := m ((c : Thread nD τ).loc main_arg3)
/-- The second layer's weights, as launched. -/
abbrev inW1 : Cert.Gcn.Weights Ideal := m ((c : Thread nD τ).loc main_arg4)
/-- The second layer's bias, as launched. -/
abbrev inB1 : Cert.Gcn.Bias Ideal := m ((c : Thread nD τ).loc main_arg5)
/-- The third layer's weights, as launched. -/
abbrev inW2 : Cert.Gcn.Weights Ideal := m ((c : Thread nD τ).loc main_arg6)
/-- The third layer's bias, as launched. -/
abbrev inB2 : Cert.Gcn.Bias Ideal := m ((c : Thread nD τ).loc main_arg7)
/-- The head's first weights, as launched. -/
abbrev inMW1 : Cert.Gcn.Weights Ideal := m ((c : Thread nD τ).loc main_arg8)
/-- The head's first bias, as launched. -/
abbrev inMB1 : Cert.Gcn.Bias Ideal := m ((c : Thread nD τ).loc main_arg9)
/-- The head's one-column weights, as launched. -/
abbrev inMW2 : Cert.Gcn.HeadWeights Ideal := m ((c : Thread nD τ).loc main_arg10)
/-- The output bias, as launched. -/
abbrev inMB2 : (⟨S1, .f32⟩ : BufTy).Contents (Elt Ideal) := m ((c : Thread nD τ).loc main_arg11)

/-- Region 0's output: the features plus a zero row, times the first weights. -/
def lin0 : Cert.Gcn.Nodes Ideal := Cert.Gcn.dense (inX m c) Cert.Gcn.zeroRow (inW0 m c)
/-- The first aggregation. -/
def agg1 : Cert.Gcn.Nodes Ideal := Cert.Gcn.aggregate (inE m c) (lin0 m c)
/-- Region 1's output: the first bias and the clamp, then the second weights. -/
def lin1 : Cert.Gcn.Nodes Ideal := Cert.Gcn.denseRelu (agg1 m c) (Cert.Gcn.rowOfReshape (inB0 m c)) (inW1 m c)
/-- The second aggregation. -/
def agg2 : Cert.Gcn.Nodes Ideal := Cert.Gcn.aggregate (inE m c) (lin1 m c)
/-- Region 2's output: the second bias and the clamp, then the third weights. -/
def lin2 : Cert.Gcn.Nodes Ideal := Cert.Gcn.denseRelu (agg2 m c) (Cert.Gcn.rowOfReshape (inB1 m c)) (inW2 m c)
/-- The third aggregation. -/
def agg3 : Cert.Gcn.Nodes Ideal := Cert.Gcn.aggregate (inE m c) (lin2 m c)
/-- Region 3's output: the third bias, no clamp, then the head's first weights. -/
def lin3 : Cert.Gcn.Nodes Ideal := Cert.Gcn.dense (agg3 m c) (Cert.Gcn.rowOfReshape (inB2 m c)) (inMW1 m c)
/-- Region 4's output: the head's first bias and the clamp, then the one-column weights. -/
def score : Cert.Gcn.Scores Ideal := Cert.Gcn.headRelu (lin3 m c) (Cert.Gcn.rowOfReshape (inMB1 m c)) (inMW2 m c)

/-! ## The chain, boundary by boundary -/

theorem W2_lin0 : W2 m ρ c (Proc.devRef .tc main_v30) = lin0 m c := by
  unfold lin0
  exact region0_out m ρ c _ _ _ (Cert.KernelIdeal.ChainHead.W1_arg0 m ρ c) (Cert.KernelIdeal.ChainHead.W1_zeroRow m ρ c) (Cert.KernelIdeal.ChainHead.W1_arg2 m ρ c)

theorem W3_agg1 : W3 m ρ c (Proc.devRef .tc main_v42) = agg1 m c := by
  unfold agg1
  rw [aggregate_eq]
  exact stretch1_agg m ρ c _ _ _ _ ((carry2 m ρ c main_v3 (by decide)).trans (Cert.KernelIdeal.ChainHead.W1_src m ρ c)) ((carry2 m ρ c main_v6 (by decide)).trans (Cert.KernelIdeal.ChainHead.W1_dst m ρ c))
    ((carry2 m ρ c main_v27 (by decide)).trans (Cert.KernelIdeal.ChainHead.W1_norm m ρ c)) (W2_lin0 m ρ c)
theorem W3_bias0 : W3 m ρ c (Proc.devRef .tc main_v43) = Cert.Gcn.rowOfReshape (inB0 m c) :=
  stretch1_bias m ρ c _ ((carry2 m ρ c main_arg3 (by decide)).trans (Cert.KernelIdeal.ChainHead.W1_arg3 m ρ c))

theorem W4_lin1 : W4 m ρ c (Proc.devRef .tc main_v44) = lin1 m c := by
  unfold lin1
  exact region1_out m ρ c _ _ _ (W3_agg1 m ρ c) (W3_bias0 m ρ c) ((carry3 m ρ c main_arg4 (by decide)).trans (Cert.KernelIdeal.ChainHead.W1_arg4 m ρ c))

theorem W5_agg2 : W5 m ρ c (Proc.devRef .tc main_v56) = agg2 m c := by
  unfold agg2
  rw [aggregate_eq]
  exact stretch2_agg m ρ c _ _ _ _ ((carry4 m ρ c main_v3 (by decide)).trans (Cert.KernelIdeal.ChainHead.W1_src m ρ c)) ((carry4 m ρ c main_v6 (by decide)).trans (Cert.KernelIdeal.ChainHead.W1_dst m ρ c))
    ((carry4 m ρ c main_v27 (by decide)).trans (Cert.KernelIdeal.ChainHead.W1_norm m ρ c)) (W4_lin1 m ρ c)
theorem W5_bias1 : W5 m ρ c (Proc.devRef .tc main_v57) = Cert.Gcn.rowOfReshape (inB1 m c) :=
  stretch2_bias m ρ c _ ((carry4 m ρ c main_arg5 (by decide)).trans (Cert.KernelIdeal.ChainHead.W1_arg5 m ρ c))

theorem W6_lin2 : W6 m ρ c (Proc.devRef .tc main_v58) = lin2 m c := by
  unfold lin2
  exact region2_out m ρ c _ _ _ (W5_agg2 m ρ c) (W5_bias1 m ρ c) ((carry5 m ρ c main_arg6 (by decide)).trans (Cert.KernelIdeal.ChainHead.W1_arg6 m ρ c))

theorem W7_agg3 : W7 m ρ c (Proc.devRef .tc main_v70) = agg3 m c := by
  unfold agg3
  rw [aggregate_eq]
  exact stretch3_agg m ρ c _ _ _ _ ((carry6 m ρ c main_v3 (by decide)).trans (Cert.KernelIdeal.ChainHead.W1_src m ρ c)) ((carry6 m ρ c main_v6 (by decide)).trans (Cert.KernelIdeal.ChainHead.W1_dst m ρ c))
    ((carry6 m ρ c main_v27 (by decide)).trans (Cert.KernelIdeal.ChainHead.W1_norm m ρ c)) (W6_lin2 m ρ c)
theorem W7_bias2 : W7 m ρ c (Proc.devRef .tc main_v71) = Cert.Gcn.rowOfReshape (inB2 m c) :=
  stretch3_bias m ρ c _ ((carry6 m ρ c main_arg7 (by decide)).trans (Cert.KernelIdeal.ChainHead.W1_arg7 m ρ c))

theorem W8_lin3 : W8 m ρ c (Proc.devRef .tc main_v72) = lin3 m c := by
  unfold lin3
  exact region3_out m ρ c _ _ _ (W7_agg3 m ρ c) (W7_bias2 m ρ c) ((carry7 m ρ c main_arg8 (by decide)).trans (Cert.KernelIdeal.ChainHead.W1_arg8 m ρ c))

/-- Region 3's output is not written between regions 3 and 4. -/
theorem W9_lin3 : W9 m ρ c (Proc.devRef .tc main_v72) = lin3 m c :=
  (step9 m ρ c main_v72 (by decide)).trans (W8_lin3 m ρ c)
theorem W9_bias3 : W9 m ρ c (Proc.devRef .tc main_v73) = Cert.Gcn.rowOfReshape (inMB1 m c) :=
  stretch4_bias m ρ c _ ((carry8 m ρ c main_arg9 (by decide)).trans (Cert.KernelIdeal.ChainHead.W1_arg9 m ρ c))

theorem W10_score : W10 m ρ c (Proc.devRef .tc main_v74) = score m c := by
  unfold score
  exact region4_out m ρ c _ _ _ (W9_lin3 m ρ c) (W9_bias3 m ρ c) ((carry9 m ρ c main_arg10 (by decide)).trans (Cert.KernelIdeal.ChainHead.W1_arg10 m ρ c))

theorem W11_out : W11 m ρ c (Proc.devRef .tc main_v77)
    = addf (F := Ideal) (s := S50000x1) (φ := .f32) (score m c) (Cert.Gcn.everyScore (F := Ideal) (inMB2 m c)) :=
  stretch5_out m ρ c _ _ (W10_score m ρ c) ((carry10 m ρ c main_arg11 (by decide)).trans (Cert.KernelIdeal.ChainHead.W1_arg11 m ρ c))

/-- The chain's last value is the specification's `kernOut` of the launched arguments: each layer's definition
    unfolded in turn. -/
theorem out_eq : addf (F := Ideal) (s := S50000x1) (φ := .f32) (score m c) (Cert.Gcn.everyScore (F := Ideal) (inMB2 m c))
    = Cert.Gcn.kernOut (F := Ideal) (inX m c) (inE m c) (inW0 m c) (inB0 m c) (inW1 m c) (inB1 m c) (inW2 m c) (inB2 m c)
        (inMW1 m c) (inMB1 m c) (inMW2 m c) (inMB2 m c) := by
  unfold Cert.Gcn.kernOut score lin3 agg3 lin2 agg2 lin1 agg1 lin0
  rfl

end Lemmas

theorem kernel_value (m : (ℓ : Loc nD τ sig) → Buf (Elt Ideal) ℓ) (ρ : Dev nD → PrngReg) (c : Dev nD) :
    W11 (F := Ideal) m ρ c (Proc.devRef .tc main_v77) =
      Cert.Gcn.kernOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W11_out m ρ c).trans (out_eq m c)

end Cert.KernelIdeal.Chain

end
-- ==== Proof.Bridge.lean ====
/-
  The two arrangements of the same network agree on the extended reals.

  The kernel differs from the reference in three places only. It lays a bias vector out as a one-row array by a
  reshape where the reference broadcasts it into a new leading axis: the same row. It adds a row of zeros before the
  first matrix product: `x + 0 = x` for every extended real `x`, the infinities included. And it adds each layer's
  bias, and clamps, in front of the next matrix product instead of behind the aggregation before it: the same
  operations on the same values, which the closed forms `dense`, `denseRelu`, `headRelu` spell out. No law of
  arithmetic beyond `x + 0 = x` is used, so the inputs' finiteness is never needed.

  Last, the reference program's own result term is `refOut` of its arguments, by unfolding the definitions.
-/
import proofs.«131708_j48490180771963_1_alg».proof.Proof.Spec
import proofs.«131708_j48490180771963_1_alg».proof.Proof.Gen.ReferenceIdeal.Run
import Idealize.ShloMosaic.Lib.Pipeline.Value
import Idealize.ShloMosaic.Lib.ValueIdx
import Idealize.ShloMosaic.PureOps.Ideal
import Idealize.ShloMosaic.PureOps.Ideal.Laws

noncomputable section

namespace Cert.Gcn

open Idealize.ShloMosaic Cert.ReferenceIdeal Cert.ReferenceIdeal.Gen

variable {F : FTy → Type} [FloatOps F]

/-- A vector of 128 numbers as a 1 × 128 array: entry (0, q) is entry q, whether the array is made by a reshape or by a
    broadcast into a new leading axis. -/
theorem rowOfReshape_eq (b : Bias F) : rowOfReshape b = rowOfBroadcast b := by
  funext j
  unfold rowOfReshape rowOfBroadcast
  refine (shapeCast_addUnit_apply ![128] b _ j).trans ?_
  refine (broadcastInDim_apply _ bcast_S128_S1x128_1 b j (fun a => j a.succ) (fun a => ?_)).symm
  match a with
  | ⟨0, _⟩ => show (j 1).val = if (128 : Nat) = 1 then 0 else (j 1).val; rw [if_neg (by decide)]

/-- The kernel's zero bias row is zero at every entry. -/
theorem zeroRow_apply (j : S1x128.Idx) : zeroRow (F := Ideal) j = 0 := by
  unfold zeroRow
  refine (shapeCast_addUnit_apply ![128] _ _ j).trans ?_
  refine (broadcastInDim_apply _ Cert.KernelIdeal.Gen.bcast_S_S128 _ _ (fun a => a.elim0) (fun a => a.elim0)).trans ?_
  show Ideal.ofBits .f32 0x00000000#32 = 0
  exact Ideal.ofBits_zero_f32

/-- Adding the zero row to every node's row changes nothing: `x + 0 = x` on the extended reals. -/
theorem add_zeroRow (x : Nodes Ideal) : addf x (everyNode (zeroRow (F := Ideal))) = x := by
  funext i
  show x i + everyNode (zeroRow (F := Ideal)) i = x i
  have h : everyNode (zeroRow (F := Ideal)) i = 0 := by
    unfold everyNode
    refine (broadcastInDim_apply _ bcast_S1x128_S50000x128_0_1 _ i
      (fun a => match a with | ⟨0, _⟩ => ⟨0, Nat.one_pos⟩ | ⟨1, _⟩ => ⟨(i 1).val, (i 1).isLt⟩) (fun a => ?_)).trans (zeroRow_apply _)
    match a with
    | ⟨0, _⟩ => show 0 = if (1 : Nat) = 1 then 0 else (i 0).val; rw [if_pos rfl]
    | ⟨1, _⟩ => show (i 1).val = if (128 : Nat) = 1 then 0 else (i 1).val; rw [if_neg (by decide)]
  rw [h, add_zero]

/-- The kernel's arrangement and the reference's compute the same scores. -/
theorem kernOut_eq_refOut (x : Nodes Ideal) (e : Edges Ideal) (w0 : Weights Ideal) (b0 : Bias Ideal) (w1 : Weights Ideal) (b1 : Bias Ideal) (w2 : Weights Ideal) (b2 : Bias Ideal)
    (mw1 : Weights Ideal) (mb1 : Bias Ideal) (mw2 : HeadWeights Ideal) (mb2 : (⟨S1, .f32⟩ : BufTy).Contents (Elt Ideal)) :
    kernOut (F := Ideal) x e w0 b0 w1 b1 w2 b2 mw1 mb1 mw2 mb2 = refOut (F := Ideal) x e w0 b0 w1 b1 w2 b2 mw1 mb1 mw2 mb2 := by
  unfold kernOut refOut headRelu dense denseRelu
  rw [add_zeroRow, rowOfReshape_eq, rowOfReshape_eq, rowOfReshape_eq, rowOfReshape_eq]

open Cert.ReferenceIdeal.Value in
/-- The reference program's result term is `refOut` of its argument arrays. -/
theorem res_eq_refOut (m : (ℓ : Loc nD τ sig) → Buf (Elt Ideal) ℓ) (c : Dev nD) :
    res_main_v86 (F := Ideal) m c = refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold res_main_v86 refOut matHead matN aggregate everyNode rowOfBroadcast zeroNodes everyScore edgeNorm dinv wrapIdx srcIdx dstIdx
  rfl

end Cert.Gcn

end
-- ==== Proof.lean ====
/-
  The certificate: a three-layer graph convolution with a two-layer head, computed by five pallas_calls with the
  gathers and scatter-adds between them on the host, against its plain jax.numpy reference — equal on the extended
  reals.

  The three frames. The kernel's program, read at the word level and at the ideal instance, runs and leaves its
  arguments as launched: its generated frame. The reference has no kernel; its frame is its run with the result dropped.

  `preserves`: the ideal pass rewrote nothing, so there is nothing to state.

  `algebraic`. The kernel's run ends with its result buffer at the last boundary's contents (Proof/KRun.lean), and those
  contents, read back through the host stretches and through each region's output array (Proof/Region0 … Region4,
  Proof/Chain.lean), are `Cert.Gcn.kernOut` of the arguments (Proof/Spec.lean): every region leaves
  (x + bias row [clamped at 0]) · w in its output array, block by block of 5000 rows, and the host stretches between
  them aggregate over the edge list. The reference's run ends at `Cert.Gcn.refOut` of its arguments, and the two
  are the same function (Proof/Bridge.lean): a reshape against a broadcast of a bias vector, `x + 0 = x`, and the
  bias and clamp moved across a region boundary.
-/
import proofs.«131708_j48490180771963_1_alg».proof.Defs
import proofs.«131708_j48490180771963_1_alg».proof.Proof.Gen.Kernel
import proofs.«131708_j48490180771963_1_alg».proof.Proof.Gen.Kernel.Frame
import proofs.«131708_j48490180771963_1_alg».proof.Proof.Gen.KernelIdeal
import proofs.«131708_j48490180771963_1_alg».proof.Proof.Gen.KernelIdeal.Frame
import proofs.«131708_j48490180771963_1_alg».proof.Proof.Gen.ReferenceIdeal
import proofs.«131708_j48490180771963_1_alg».proof.Proof.Gen.ReferenceIdeal.Run
import proofs.«131708_j48490180771963_1_alg».proof.Proof.Gen.Pre_finite_inputs
import proofs.«131708_j48490180771963_1_alg».proof.Proof.Spec
import proofs.«131708_j48490180771963_1_alg».proof.Proof.KRun
import proofs.«131708_j48490180771963_1_alg».proof.Proof.Chain
import proofs.«131708_j48490180771963_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the scores `kernOut` of the kernel's arguments: the kernel by its run read back through
    its regions, the reference by its run's term, which is `refOut` of arguments that agree with the kernel's. -/
theorem algebraic : Cert.algebraic_KernelIdeal_ReferenceIdeal := by
  intro m ρ m' ρ' _ hagree
  refine ⟨fun c => Cert.Gcn.kernOut (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.kernel_value m ρ c), (h c).2⟩)
      (Cert.KernelIdeal.ValueRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.Gcn.res_eq_refOut, h0, h1, h2, h3, h4, h5, h6, h7, h8, h9, h10, h11]
    exact (Cert.Gcn.kernOut_eq_refOut _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
